-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel

variable [Facts]

def fn {F : FTy → Type} [FloatOps F] (main_arg0 : FVec F S131072x256 .f32) (main_arg1 : FVec F S131072x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  main_v8
-- ==== Kernel.lean ====
abbrev S131072x256 : Shape := ⟨2, ![131072, 256]⟩
abbrev S256x256 : Shape := ⟨2, ![256, 256]⟩
abbrev S8192x128 : Shape := ⟨2, ![8192, 128]⟩
abbrev S128x128 : Shape := ⟨2, ![128, 128]⟩
abbrev S1x1 : Shape := ⟨2, ![1, 1]⟩
abbrev S256 : Shape := ⟨1, ![256]⟩
abbrev S256x1 : Shape := ⟨2, ![256, 1]⟩
abbrev S1 : Shape := ⟨1, ![1]⟩
abbrev S1x256 : Shape := ⟨2, ![1, 256]⟩
abbrev S_ : Shape := ⟨0, ![]⟩

abbrev nBuf : Space → Nat
  | .hbm => 5
  | .vmem => 9
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256x256, .f32⟩
  | .hbm, ⟨3, _⟩ => ⟨S1x1, .f32⟩
  | .hbm, ⟨4, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S256x256, .f32⟩
  | .local _ .vmem, ⟨8, _⟩ => ⟨S1x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨3, ![2, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  reduces_S256x256_S256 : S256x256.Reduces [1] S256
  shapeCasts_S256_S256x1 : S256.ShapeCasts S256x1
  reduces_S256x1_S1 : S256x1.Reduces [0] S1
  shapeCasts_S1_S1x1 : S1.ShapeCasts S1x1
  broadcasts_S1x1_S256x256 : S1x1.Broadcasts S256x256
  reduces_S256x256_S256_2 : S256x256.Reduces [0] S256
  shapeCasts_S256_S1x256 : S256.ShapeCasts S1x256
  broadcasts_S1x256_S256x256 : S1x256.Broadcasts S256x256
  broadcasts_S256x1_S256x256 : S256x1.Broadcasts S256x256
  inb_S1x1_S1x1_0_0 : ∀ a, (![0, 0] : Fin 2 → Nat) a + S1x1.size a ≤ S1x1.size a
  h_S1x1 : 0 < S1x1.numel
  shapeCasts_S1x1_S_ : S1x1.ShapeCasts S_
  dot_S8192x128_S8192x128_S128x128_0_0_1_1_n_n_wf : DotDims.WF S8192x128 S8192x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x256.size a
  hwx0_0 : ∀ i : grid0.Coords, EltTy.bits .f32 = 32 ∨ (Rect.block (s := S131072x256) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x256.size a
  hwx0_1 : ∀ i : grid0.Coords, EltTy.bits .f32 = 32 ∨ (Rect.block (s := S131072x256) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S256x256.size a
  hwx0_2 : ∀ i : grid0.Coords, EltTy.bits .f32 = 32 ∨ (Rect.block (s := S256x256) S128x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x256.size a
  hwx1_0 : ∀ i : grid1.Coords, EltTy.bits .f32 = 32 ∨ (Rect.block (s := S256x256) S256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S256x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S_ : Shape := ⟨0, ![]⟩
abbrev S256 : Shape := ⟨1, ![256]⟩
abbrev S256x1 : Shape := ⟨2, ![256, 1]⟩
abbrev S1x256 : Shape := ⟨2, ![1, 256]⟩

abbrev nBuf : Space → Nat
  | .hbm => 44
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S_, .f32⟩
  | .hbm, ⟨25, _⟩ => ⟨S1x256, .f32⟩
  | .hbm, ⟨26, _⟩ => ⟨S1x256, .f32⟩
  | .hbm, ⟨27, _⟩ => ⟨S256x256, .f32⟩
  | .hbm, ⟨28, _⟩ => ⟨S256x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S256x256, .f32⟩
  | .hbm, ⟨34, _⟩ => ⟨S256x256, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  transposes_S256x256_S256x256_1_0 : S256x256.Transposes [1, 0] S256x256
  bcast_S_S256x256 : S_.BroadcastsInDim S256x256 (![] : Fin 0 → Fin S256x256.rank)
  reducesTo_S256x256_S_d0_1 : S256x256.ReducesTo [0, 1] S_
  h_S_ : 0 < S_.numel
  reducesTo_S256x256_S256_d1 : S256x256.ReducesTo [1] S256
  bcast_S256_S256x1_0 : S256.BroadcastsInDim S256x1 (![0] : Fin 1 → Fin S256x1.rank)
  reducesTo_S256x256_S256_d0 : S256x256.ReducesTo [0] S256
  bcast_S256_S1x256_1 : S256.BroadcastsInDim S1x256 (![1] : Fin 1 → Fin S1x256.rank)
  bcast_S_S256x1 : S_.BroadcastsInDim S256x1 (![] : Fin 0 → Fin S256x1.rank)
  bcast_S_S1x256 : S_.BroadcastsInDim S1x256 (![] : Fin 0 → Fin S1x256.rank)
  bcast_S1x256_S256x256_0_1 : S1x256.BroadcastsInDim S256x256 (![0, 1] : Fin 2 → Fin S256x256.rank)
  bcast_S256x1_S256x256_0_1 : S256x1.BroadcastsInDim S256x256 (![0, 1] : Fin 2 → Fin S256x256.rank)
  dot_S131072x256_S131072x256_S256x256_0_0_1_1_n_n_wf : DotDims.WF S131072x256 S131072x256 S256x256 [0] [0] [1] [1] [] []

variable [Facts₀]

def dot_S131072x256_S131072x256_S256x256_0_0_1_1_n_n : DotDims S131072x256 S131072x256 S256x256 where
  lhsContracting := [0]
  rhsContracting := [0]
  lhsNonContracting := [1]
  rhsNonContracting := [1]
  lhsBatch := []
  rhsBatch := []
  wf := dot_S131072x256_S131072x256_S256x256_0_0_1_1_n_n_wf

class Facts : Prop extends Facts₀ where

variable [Facts]
-- ==== Proof.KernelR0Base.lean ====
/-
  The first kernel (the blocked Gram product) on its grid of 2 × 2 × 16 points: what its three control cases are,
  where its output window rests, and the memrefs it is called with.

  Point `t` has coordinates `(i, j, k)` with `k = t mod 16` running fastest.  The body zeroes its accumulator
  when `k = 0`, adds the product of the two 8192 × 128 input blocks to it at every point, and copies the
  accumulator into the 128 × 128 output block when `k = 15`.  So a point is in one of three cases: the first step
  of a block (`k = 0`), a middle step (`0 < k < 15`), the last step (`k = 15`); the output window is idle, and
  not written back, except at the last step.
-/
import proofs.«147790_j71159018160383_1_alg».proof.Proof.Gen.Kernel.Launch
import proofs.«147790_j71159018160383_1_alg».proof.Proof.Gen.Kernel.Skeleton
import proofs.«147790_j71159018160383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the kernel's region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point (it is fetched at every point, never cut,
    never idle), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions, decided over the grid -/

/-- "This is the first step of a block": the reduction coordinate is zero. -/
abbrev cond0_0 (i : grid0.Coords) : Prop := (Scalar.cmpi .ne (Scalar.extui (Scalar.cmpi .eq (BitVec.ofNat 32 (i 2).val) 0#32)) 0#32) = 1#1
/-- It holds exactly at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last step of a block": the reduction coordinate is fifteen. -/
abbrev cond0_1 (i : grid0.Coords) : Prop := k0_cond2 i = 1#1
/-- It holds exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows rest -/

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last step the output window is idle (the body stores nothing into it) and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is live. -/
theorem liveAt0_2 : ∀ t : Fin cfg0.N, cond0_1 (grid0.coords t) → cfg0.idle 2 (grid0.coords t) = false := by decide +kernel

/-! ## The memrefs the body is called with -/

/-- One staging buffer of the output window, through which its contents are stated (the choice does not matter). -/
abbrev VO0_2 : View sig .tc .vmem S128x128 .f32 := (Memref.whole cc0_stg2_0 : Memref sig .tc .vmem S128x128 .f32).view
/-- Each window's current staging memref at point `t`, as the pipeline passes it, and its wholeness. -/
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S128x128 .f32 := Memref.whole cc0_scratch0
abbrev VS0_0 : View sig .tc .vmem S128x128 .f32 := scM0_0.view

/-- What the region's invariant holds besides the windows: the accumulator at some contents, the second kernel's two
    staging buffers at some contents, the generator register at some state. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f)) ∗ (∃ r, prngReg c r)) := by
  unfold Pipeline.ΦA; rw [scopedRest0_eq]; simp only [scM0_0, owns_whole]; try rfl

end Cert.Kernel.Hand

end
-- ==== Proof.KernelR0RunA.lean ====
/-
  The first kernel's body at the FIRST step of an output block (the reduction coordinate is 0 and is not 15):
  the accumulator is zeroed, the product of the two input blocks is added to it, the output block is not touched.
  The body is run symbolically once on whole memrefs; the list of pieces it leaves in the accumulator is found by that
  run and kept as its witness.
-/
import proofs.«147790_j71159018160383_1_alg».proof.Proof.KernelR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first-step run: the inputs' memrefs at their contents `x0`, `x1` and the idle output's at `xi2` are handed back
    untouched; the accumulator, entered at anything, is left with the found pieces `LS0` written. -/
noncomputable def kernelRun0_A (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : cond0_0 i) (hc1 : ¬cond0_1 i)
    (x0 : Vec F S8192x128 .f32) (x1 : Vec F S8192x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KernelR0RunB.lean ====
/-
  The first kernel's body at a MIDDLE step of an output block (the reduction coordinate is neither 0 nor 15):
  the product of the two input blocks is added to the accumulator as the step before left it; the output block is
  not touched.
-/
import proofs.«147790_j71159018160383_1_alg».proof.Proof.KernelR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The middle-step run: the inputs' and the idle output's memrefs are handed back untouched; the accumulator, entered at
    the contents `xs0` the step before left, ends with the found pieces `LS0` written. -/
noncomputable def kernelRun0_B (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : ¬cond0_1 i)
    (x0 : Vec F S8192x128 .f32) (x1 : Vec F S8192x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KernelR0RunC.lean ====
/-
  The first kernel's body at the LAST step of an output block (the reduction coordinate is 15, not 0):
  the product of the two input blocks is added to the accumulator as the step before left it, and the accumulator is
  then copied whole into the output block.
-/
import proofs.«147790_j71159018160383_1_alg».proof.Proof.KernelR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last-step run: the inputs' memrefs are handed back untouched; the output's, entered at anything, ends with the found
    pieces `L2` written; the accumulator, entered at the contents `xs0` the step before left, ends with `LS0` written. -/
noncomputable def kernelRun0_C (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S8192x128 .f32) (x1 : Vec F S8192x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KernelR0.lean ====
/-
  The first kernel (the blocked Gram product) over its whole grid: what the accumulator and the output block hold after
  every point, the region's invariant that carries the accumulator from point to point, and the body obligation.

  After point `t = (i, j, k)` the accumulator holds the first-step run's result if `k = 0` and otherwise this step's run over
  what the point before left; the output's staging buffer holds the accumulator's copy after a last step (`k = 15`) and is
  not consulted elsewhere.  The invariant before the first point says nothing of the accumulator; after point `t` it holds
  the accumulator at exactly those contents.
-/
import proofs.«147790_j71159018160383_1_alg».proof.Proof.KernelR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back from the pieces its run found -/

/-- First step: nothing is stored into the output (a placeholder nothing consults). -/
def out0_A_2 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : cond0_0 i) (hc1 : ¬cond0_1 i)
    (x0 : Vec F S8192x128 .f32) (x1 : Vec F S8192x128 .f32) : Vec F S128x128 .f32 :=
  VO0_2.read (Elt F) (VO0_2.writes (Elt F) VO0_2.junk (kernelRun0_A c i arg3 harg3 arg4 harg4 arg5 harg5 arg6 harg6 hc0 hc1 x0 x1).1)

/-- First step: the pieces stored into the accumulator (the zero fill, then the sum) cover it. -/
theorem scover0_A_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : cond0_0 i) (hc1 : ¬cond0_1 i)
    (x0 : Vec F S8192x128 .f32) (x1 : Vec F S8192x128 .f32) (y : S128x128.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S128x128.size (by sl_kernel_rfl) y

/-- First step: what the accumulator holds afterwards. -/
def sout0_A_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : cond0_0 i) (hc1 : ¬cond0_1 i)
    (x0 : Vec F S8192x128 .f32) (x1 : Vec F S8192x128 .f32) : Vec F S128x128 .f32 :=
  VS0_0.read (Elt F) (VS0_0.writes (Elt F) VS0_0.junk (kernelRun0_A c i arg3 harg3 arg4 harg4 arg5 harg5 arg6 harg6 hc0 hc1 x0 x1).2.1)

/-- Middle step: nothing is stored into the output (a placeholder nothing consults). -/
def out0_B_2 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : ¬cond0_1 i)
    (x0 : Vec F S8192x128 .f32) (x1 : Vec F S8192x128 .f32) (xs0 : Vec F S128x128 .f32) : Vec F S128x128 .f32 :=
  VO0_2.read (Elt F) (VO0_2.writes (Elt F) VO0_2.junk (kernelRun0_B c i arg3 harg3 arg4 harg4 arg5 harg5 arg6 harg6 hc0 hc1 x0 x1 xs0).1)

/-- Middle step: the one piece stored into the accumulator covers it. -/
theorem scover0_B_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : ¬cond0_1 i)
    (x0 : Vec F S8192x128 .f32) (x1 : Vec F S8192x128 .f32) (xs0 : Vec F S128x128 .f32) (y : S128x128.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S128x128.size (by sl_kernel_rfl) y

/-- Middle step: what the accumulator holds afterwards. -/
def sout0_B_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : ¬cond0_1 i)
    (x0 : Vec F S8192x128 .f32) (x1 : Vec F S8192x128 .f32) (xs0 : Vec F S128x128 .f32) : Vec F S128x128 .f32 :=
  VS0_0.read (Elt F) (VS0_0.writes (Elt F) VS0_0.junk (kernelRun0_B c i arg3 harg3 arg4 harg4 arg5 harg5 arg6 harg6 hc0 hc1 x0 x1 xs0).2.1)

/-- Last step: the one piece stored into the output block covers it. -/
theorem cover0_C_2 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S8192x128 .f32) (x1 : Vec F S8192x128 .f32) (xs0 : Vec F S128x128 .f32) (y : S128x128.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S128x128.size (by sl_kernel_rfl) y

/-- Last step: what the output's staging buffer holds afterwards. -/
def out0_C_2 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S8192x128 .f32) (x1 : Vec F S8192x128 .f32) (xs0 : Vec F S128x128 .f32) : Vec F S128x128 .f32 :=
  VO0_2.read (Elt F) (VO0_2.writes (Elt F) VO0_2.junk (kernelRun0_C c i arg3 harg3 arg4 harg4 arg5 harg5 arg6 harg6 hc0 hc1 x0 x1 xs0).1)

/-- Last step: the one piece stored into the accumulator covers it. -/
theorem scover0_C_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S8192x128 .f32) (x1 : Vec F S8192x128 .f32) (xs0 : Vec F S128x128 .f32) (y : S128x128.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S128x128.size (by sl_kernel_rfl) y

/-- Last step: what the accumulator holds afterwards. -/
def sout0_C_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S8192x128 .f32) (x1 : Vec F S8192x128 .f32) (xs0 : Vec F S128x128 .f32) : Vec F S128x128 .f32 :=
  VS0_0.read (Elt F) (VS0_0.writes (Elt F) VS0_0.junk (kernelRun0_C c i arg3 harg3 arg4 harg4 arg5 harg5 arg6 harg6 hc0 hc1 x0 x1 xs0).2.1)

section
variable (V : (c : Dev nD) → (b : Ref sig .tc) → Buf (Elt F) ((c : Thread nD τ).loc b))

/-! ## What the output's buffer and the accumulator hold after each point -/

/-- After the body at position `n`: the pair (output staging buffer, accumulator).  The case is read off `n mod 16`; a middle
    or last step runs over the accumulator the point before left. -/
def outsAt0 (c : Dev nD) : (n : ℕ) → n < cfg0.N → Vec F S128x128 .f32 × Vec F S128x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first step. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle step, over what the point before left. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before position `n`: before the first point the accumulator is at anything; afterwards at what the point before left.
    Beside it ride the second kernel's two staging buffers at anything and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f)) ∗ (∃ r, prngReg c r)) := by
  cases n with
  | zero => exact absurd rfl hz
  | succ n => rfl

/-! ## The proof data -/

/-- The first kernel's proof data over the entry contents `V`: each input's buffer keeps its block, the output's holds
    `outsAt0`'s first component, the invariant is `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; `t mod 16` says which case the point is in; the invariant
    hands the body the accumulator at what the point before left (at anything before the first point) and takes it back
    at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    by_cases hz : t.val = 0
    · rw [PhiS_castSucc V c t, PhiS_zero V c _ _ hz, PhiA0_eq]
      iintro ⟨⟨⟨HS0, Hr1, Hr2⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr1 Hr2 Hg]
      · isplitl [HS0 Hr1 Hr2]
        · isplitl [HS0]
          · unfold owns; iexists _; isplitr
            swap; · iexact HS0
            ipureintro; exact View.read_writes_of_cover _ _ _ _ _ (scover0_A_0 c _ _ _ _ _ _ _ _ _ _ _ _ _)
          isplitl [Hr1]; · iexact Hr1
          iexact Hr2
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hr1, Hr2⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr1 Hr2 Hg]
      · isplitl [HS0 Hr1 Hr2]
        · isplitl [HS0]
          · unfold owns; iexists _; isplitr
            swap; · iexact HS0
            ipureintro; exact View.read_writes_of_cover _ _ _ _ _ (scover0_A_0 c _ _ _ _ _ _ _ _ _ _ _ _ _)
          isplitl [Hr1]; · iexact Hr1
          iexact Hr2
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS_castSucc V c t, PhiS_pos V c _ _ hz]
      iintro ⟨⟨⟨HS0, Hr1, Hr2⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr1 Hr2 Hg]
      · isplitl [HS0 Hr1 Hr2]
        · isplitl [HS0]
          · unfold owns; iexists _; isplitr
            swap; · iexact HS0
            ipureintro; exact View.read_writes_of_cover _ _ _ _ _ (scover0_C_0 c _ _ _ _ _ _ _ _ _ _ _ _ _ _)
          isplitl [Hr1]; · iexact Hr1
          iexact Hr2
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS_castSucc V c t, PhiS_pos V c _ _ hz]
      iintro ⟨⟨⟨HS0, Hr1, Hr2⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr1 Hr2 Hg]
      · isplitl [HS0 Hr1 Hr2]
        · isplitl [HS0]
          · unfold owns; iexists _; isplitr
            swap; · iexact HS0
            ipureintro; exact View.read_writes_of_cover _ _ _ _ _ (scover0_B_0 c _ _ _ _ _ _ _ _ _ _ _ _ _ _)
          isplitl [Hr1]; · iexact Hr1
          iexact Hr2
        iexact Hg
      isplitl [Ho]; · iexact Ho
      isplitl [H0]; · iexact H0
      isplitl [H1]; · iexact H1
      iexists _; iexact H2

/-- The body obligation of the first kernel's pipeline. -/
theorem body_obligation0 (c : Dev nD) : BodyObligation (dat0 (F := F) V c) (defs₀ (F := F)) Variants.none () Set.univ := fun t => by
  rw [bigSep_W0, bigSep_W0]
  exact sound_body0 V c t

/-- What the region's entry hands over is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the same back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr1, Hr2⟩, Hg⟩
  isplitl [HS0 Hr1 Hr2]
  · isplitl [HS0]; · iexists _; iexact HS0
    isplitl [Hr1]; · iexact Hr1
    iexact Hr2
  iexact Hg

end

end Cert.Kernel.Hand

end
-- ==== Proof.KernelR1.lean ====
/-
  The second kernel (the loss of the 256 × 256 joint matrix) as one grid point: it loads its whole input block, computes
  the scalar loss from it, and stores that into its 1 × 1 output block.  Its only store is one whole-block piece, so
  after the body the output's staging buffer holds the loss payload of the input block, whatever it held before.
-/
import proofs.«147790_j71159018160383_1_alg».proof.Proof.Gen.Kernel.Launch
import proofs.«147790_j71159018160383_1_alg».proof.Proof.Gen.Kernel.Skeleton
import proofs.«147790_j71159018160383_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at the one grid point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds its block (fetched at the point, never cut, never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 256 × 256 input block and the whole 1 × 1 output block, as the body addresses them. -/
abbrev r1_0 : Rect S256x256 := Rect.unit (s := S256x256) ![0, 0] S256x256.size inb_S256x256_S256x256_0_0
abbrev r1_1 : Rect S1x1 := Rect.unit (s := S1x1) ![0, 0] S1x1.size inb_S1x1_S1x1_0_0

/-- The output's staging buffer after the body: the loss payload of the loaded input block, stored whole. -/
def out1_1 (x0 : Vec F S256x256 .f32) : Vec F S1x1 .f32 :=
  View.canon [⟨r1_1, k1_pay1 (View.ld x0 r1_0)⟩]

/-- The one store covers the 1 × 1 buffer. -/
theorem cover1_1 (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

set_option maxHeartbeats 1000000 in
/-- The body on whole staging memrefs: the input's at `x0` is handed back untouched, the output's (entered at anything; the
    body also reads it once, into a value it never uses) ends at `out1_1 x0`. -/
theorem sound_kernel1 (c : Dev nD) (E : Set ℕ) (i : grid1.Coords) (arg1 : Memref sig .tc .vmem S256x256 .f32) (harg1 : arg1.IsWhole) (arg2 : Memref sig .tc .vmem S1x1 .f32) (harg2 : arg2.IsWhole)
    (x0 : Vec F S256x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__post_kernel i arg1 harg1 arg2 harg2) K := by
  simp only [cc1__post_kernel_eq_skeleton]; unfold cc1__post_kernel_skel
  simp only [k1_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The second kernel's proof data over the entry contents `V`: the input's buffer keeps its block, the output's ends at the
    loss payload of that block; the invariant is the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at the point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the second kernel's pipeline. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KernelRun.lean ====
/-
  The whole program, from the launch to the return: the two kernels' regions one after the other, then the one host
  operation that reshapes the 1 × 1 result to a scalar.

  The buffers' contents are followed through the three items.  At launch every buffer holds the launch memory.  After the
  first kernel its output array (the 256 × 256 joint matrix) holds what its sixty-four write-backs leave, and every other
  buffer is unchanged; after the second kernel its 1 × 1 output holds what its one write-back leaves; the reshape then
  writes the scalar result.  Neither kernel writes an argument array (each reads them through input windows or not at
  all) and the reshape writes only its own result, so the arguments end as launched.  The theorem `run` says that every
  weakly fair execution terminates, faults nowhere, and ends with every unscoped buffer at the last of these contents.
-/
import proofs.«147790_j71159018160383_1_alg».proof.Proof.KernelR0
import proofs.«147790_j71159018160383_1_alg».proof.Proof.KernelR1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same read at the TensorCore's references: what the first kernel's proof data take. -/
abbrev U0 : (c : Dev nD) → (b : Ref sig .tc) → Buf (Elt F) ((c : Thread nD τ).loc b) := fun c b => W0 m c b
/-- After the first kernel: its arrays at what the pipeline leaves, every other buffer as before. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same at the TensorCore's references: what the second kernel's proof data take. -/
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After the second kernel. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- After the reshape. -/
abbrev W3 : Dev nD → Valuation τ sig (Elt F) := fun c => StableHlo.after hostOps2 (W2 m c)

/-- The reshape allocates nothing. -/
theorem hostOps2_fresh : (hostOps2 : List (HloOp τ sig (Elt F))).Forall fun op => op.fresh = ∅ := by
  simp only [List.Forall]; repeat' constructor

/-- The reshape writes only the scalar result, so any other buffer passes through it. -/
theorem W3_of_ne (c : Dev nD) (b : Ref sig .tc) (hb : b ≠ main_v2) : W3 m c (Proc.devRef .tc b) = W2 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The first argument ends as launched: the reshape and the second kernel do not touch it, the first kernel only reads it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (U0 m) c).arrAt_in 0 rfl _).trans (A_eq0 (U0 m) c 0))
    _ = m ((c : Thread nD τ).loc main_arg0) := rfl

/-- The second argument likewise. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 1).trans (((dat0 (U0 m) c).arrAt_in 1 rfl _).trans (A_eq0 (U0 m) c 1))
    _ = m ((c : Thread nD τ).loc main_arg1) := rfl

/-! ## The proof data of both pipelines, and what rides beside the buffers -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- The reshape as a segment over every unscoped buffer from the contents `W2`. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The two regions as segments -/

set_option backward.isDefEq.respectTransparency.types false in
/-- The first kernel's region: entered with every unscoped buffer at the launch contents, left with them at `W1`.  Its
    arrays are split out of the unscoped buffers at entry and put back at exit; the generator register and the scoped rest
    enter the invariant (whose first state says nothing of the accumulator) and come back (the accumulator's contents
    forgotten); nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U0 m) c)
    unfold Pipeline.ΦA
    iintro ⟨Hp, -, Hr⟩
    isplitl [Hr]; · iexact Hr
    iexact Hp
  hout c := by
    rw [Pipeline.ownSems0_none]
    refine BIBase.Entails.trans (hout0 (U0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered with every unscoped buffer at `W1`, left with them at `W2`; its invariant is the
    scoped rest and the generator register, untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its three items, and the launch -/

abbrev segs : List (Pipeline.Seg (pcfgs (F := F)) adm (pdats m) () defs₀ 𝒱₀ L lv) :=
  [ .region (reg0 m), .region (reg1 m), .host (hseg2 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final memory holds every unscoped buffer at the contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every execution terminates, faults nowhere, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run m ρ)

end Cert.Kernel.Hand

end
-- ==== Proof.KernelIdealR0Base.lean ====
/-
  The first kernel (the blocked Gram product) on its grid of 2 × 2 × 16 points: what its three control cases are,
  where its output window rests, and the memrefs it is called with.

  Point `t` has coordinates `(i, j, k)` with `k = t mod 16` running fastest.  The body zeroes its accumulator
  when `k = 0`, adds the product of the two 8192 × 128 input blocks to it at every point, and copies the
  accumulator into the 128 × 128 output block when `k = 15`.  So a point is in one of three cases: the first step
  of a block (`k = 0`), a middle step (`0 < k < 15`), the last step (`k = 15`); the output window is idle, and
  not written back, except at the last step.
-/
import proofs.«147790_j71159018160383_1_alg».proof.Proof.Gen.KernelIdeal.Launch
import proofs.«147790_j71159018160383_1_alg».proof.Proof.Gen.KernelIdeal.Skeleton
import proofs.«147790_j71159018160383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the core's buffer contents when the kernel's region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point (it is fetched at every point, never cut,
    never idle), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions, decided over the grid -/

/-- "This is the first step of a block": the reduction coordinate is zero. -/
abbrev cond0_0 (i : grid0.Coords) : Prop := (Scalar.cmpi .ne (Scalar.extui (Scalar.cmpi .eq (BitVec.ofNat 32 (i 2).val) 0#32)) 0#32) = 1#1
/-- It holds exactly at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last step of a block": the reduction coordinate is fifteen. -/
abbrev cond0_1 (i : grid0.Coords) : Prop := k0_cond2 i = 1#1
/-- It holds exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows rest -/

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last step the output window is idle (the body stores nothing into it) and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is live. -/
theorem liveAt0_2 : ∀ t : Fin cfg0.N, cond0_1 (grid0.coords t) → cfg0.idle 2 (grid0.coords t) = false := by decide +kernel

/-! ## The memrefs the body is called with -/

/-- One staging buffer of the output window, through which its contents are stated (the choice does not matter). -/
abbrev VO0_2 : View sig .tc .vmem S128x128 .f32 := (Memref.whole cc0_stg2_0 : Memref sig .tc .vmem S128x128 .f32).view
/-- Each window's current staging memref at point `t`, as the pipeline passes it, and its wholeness. -/
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0_0 : Memref sig .tc .vmem S128x128 .f32 := Memref.whole cc0_scratch0
abbrev VS0_0 : View sig .tc .vmem S128x128 .f32 := scM0_0.view

/-- What the region's invariant holds besides the windows: the accumulator at some contents, the second kernel's two
    staging buffers at some contents, the generator register at some state. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f)) ∗ (∃ r, prngReg c r)) := by
  unfold Pipeline.ΦA; rw [scopedRest0_eq]; simp only [scM0_0, owns_whole]; try rfl

end Cert.KernelIdeal.Hand

end
-- ==== Proof.KernelIdealR0RunA.lean ====
/-
  The first kernel's body at the FIRST step of an output block (the reduction coordinate is 0 and is not 15):
  the accumulator is zeroed, the product of the two input blocks is added to it, the output block is not touched.
  The body is run symbolically once on whole memrefs; the list of pieces it leaves in the accumulator is found by that
  run and kept as its witness.
-/
import proofs.«147790_j71159018160383_1_alg».proof.Proof.KernelIdealR0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first-step run: the inputs' memrefs at their contents `x0`, `x1` and the idle output's at `xi2` are handed back
    untouched; the accumulator, entered at anything, is left with the found pieces `LS0` written. -/
noncomputable def kernelRun0_A (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : cond0_0 i) (hc1 : ¬cond0_1 i)
    (x0 : Vec F S8192x128 .f32) (x1 : Vec F S8192x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KernelIdealR0RunB.lean ====
/-
  The first kernel's body at a MIDDLE step of an output block (the reduction coordinate is neither 0 nor 15):
  the product of the two input blocks is added to the accumulator as the step before left it; the output block is
  not touched.
-/
import proofs.«147790_j71159018160383_1_alg».proof.Proof.KernelIdealR0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The middle-step run: the inputs' and the idle output's memrefs are handed back untouched; the accumulator, entered at
    the contents `xs0` the step before left, ends with the found pieces `LS0` written. -/
noncomputable def kernelRun0_B (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : ¬cond0_1 i)
    (x0 : Vec F S8192x128 .f32) (x1 : Vec F S8192x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KernelIdealR0RunC.lean ====
/-
  The first kernel's body at the LAST step of an output block (the reduction coordinate is 15, not 0):
  the product of the two input blocks is added to the accumulator as the step before left it, and the accumulator is
  then copied whole into the output block.
-/
import proofs.«147790_j71159018160383_1_alg».proof.Proof.KernelIdealR0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last-step run: the inputs' memrefs are handed back untouched; the output's, entered at anything, ends with the found
    pieces `L2` written; the accumulator, entered at the contents `xs0` the step before left, ends with `LS0` written. -/
noncomputable def kernelRun0_C (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S8192x128 .f32) (x1 : Vec F S8192x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KernelIdealR0.lean ====
/-
  The first kernel (the blocked Gram product) over its whole grid: what the accumulator and the output block hold after
  every point, the region's invariant that carries the accumulator from point to point, and the body obligation.

  After point `t = (i, j, k)` the accumulator holds the first-step run's result if `k = 0` and otherwise this step's run over
  what the point before left; the output's staging buffer holds the accumulator's copy after a last step (`k = 15`) and is
  not consulted elsewhere.  The invariant before the first point says nothing of the accumulator; after point `t` it holds
  the accumulator at exactly those contents.
-/
import proofs.«147790_j71159018160383_1_alg».proof.Proof.KernelIdealR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back from the pieces its run found -/

/-- First step: nothing is stored into the output (a placeholder nothing consults). -/
def out0_A_2 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : cond0_0 i) (hc1 : ¬cond0_1 i)
    (x0 : Vec F S8192x128 .f32) (x1 : Vec F S8192x128 .f32) : Vec F S128x128 .f32 :=
  VO0_2.read (Elt F) (VO0_2.writes (Elt F) VO0_2.junk (kernelRun0_A c i arg3 harg3 arg4 harg4 arg5 harg5 arg6 harg6 hc0 hc1 x0 x1).1)

/-- First step: the pieces stored into the accumulator (the zero fill, then the sum) cover it. -/
theorem scover0_A_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : cond0_0 i) (hc1 : ¬cond0_1 i)
    (x0 : Vec F S8192x128 .f32) (x1 : Vec F S8192x128 .f32) (y : S128x128.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S128x128.size (by sl_kernel_rfl) y

/-- First step: what the accumulator holds afterwards. -/
def sout0_A_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : cond0_0 i) (hc1 : ¬cond0_1 i)
    (x0 : Vec F S8192x128 .f32) (x1 : Vec F S8192x128 .f32) : Vec F S128x128 .f32 :=
  VS0_0.read (Elt F) (VS0_0.writes (Elt F) VS0_0.junk (kernelRun0_A c i arg3 harg3 arg4 harg4 arg5 harg5 arg6 harg6 hc0 hc1 x0 x1).2.1)

/-- Middle step: nothing is stored into the output (a placeholder nothing consults). -/
def out0_B_2 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : ¬cond0_1 i)
    (x0 : Vec F S8192x128 .f32) (x1 : Vec F S8192x128 .f32) (xs0 : Vec F S128x128 .f32) : Vec F S128x128 .f32 :=
  VO0_2.read (Elt F) (VO0_2.writes (Elt F) VO0_2.junk (kernelRun0_B c i arg3 harg3 arg4 harg4 arg5 harg5 arg6 harg6 hc0 hc1 x0 x1 xs0).1)

/-- Middle step: the one piece stored into the accumulator covers it. -/
theorem scover0_B_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : ¬cond0_1 i)
    (x0 : Vec F S8192x128 .f32) (x1 : Vec F S8192x128 .f32) (xs0 : Vec F S128x128 .f32) (y : S128x128.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S128x128.size (by sl_kernel_rfl) y

/-- Middle step: what the accumulator holds afterwards. -/
def sout0_B_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : ¬cond0_1 i)
    (x0 : Vec F S8192x128 .f32) (x1 : Vec F S8192x128 .f32) (xs0 : Vec F S128x128 .f32) : Vec F S128x128 .f32 :=
  VS0_0.read (Elt F) (VS0_0.writes (Elt F) VS0_0.junk (kernelRun0_B c i arg3 harg3 arg4 harg4 arg5 harg5 arg6 harg6 hc0 hc1 x0 x1 xs0).2.1)

/-- Last step: the one piece stored into the output block covers it. -/
theorem cover0_C_2 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S8192x128 .f32) (x1 : Vec F S8192x128 .f32) (xs0 : Vec F S128x128 .f32) (y : S128x128.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S128x128.size (by sl_kernel_rfl) y

/-- Last step: what the output's staging buffer holds afterwards. -/
def out0_C_2 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S8192x128 .f32) (x1 : Vec F S8192x128 .f32) (xs0 : Vec F S128x128 .f32) : Vec F S128x128 .f32 :=
  VO0_2.read (Elt F) (VO0_2.writes (Elt F) VO0_2.junk (kernelRun0_C c i arg3 harg3 arg4 harg4 arg5 harg5 arg6 harg6 hc0 hc1 x0 x1 xs0).1)

/-- Last step: the one piece stored into the accumulator covers it. -/
theorem scover0_C_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S8192x128 .f32) (x1 : Vec F S8192x128 .f32) (xs0 : Vec F S128x128 .f32) (y : S128x128.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S128x128.size (by sl_kernel_rfl) y

/-- Last step: what the accumulator holds afterwards. -/
def sout0_C_0 (c : Dev nD) (i : grid0.Coords) (arg3 : Memref sig .tc .vmem S8192x128 .f32) (harg3 : arg3.IsWhole) (arg4 : Memref sig .tc .vmem S8192x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S8192x128 .f32) (x1 : Vec F S8192x128 .f32) (xs0 : Vec F S128x128 .f32) : Vec F S128x128 .f32 :=
  VS0_0.read (Elt F) (VS0_0.writes (Elt F) VS0_0.junk (kernelRun0_C c i arg3 harg3 arg4 harg4 arg5 harg5 arg6 harg6 hc0 hc1 x0 x1 xs0).2.1)

section
variable (V : (c : Dev nD) → (b : Ref sig .tc) → Buf (Elt F) ((c : Thread nD τ).loc b))

/-! ## What the output's buffer and the accumulator hold after each point -/

/-- After the body at position `n`: the pair (output staging buffer, accumulator).  The case is read off `n mod 16`; a middle
    or last step runs over the accumulator the point before left. -/
def outsAt0 (c : Dev nD) : (n : ℕ) → n < cfg0.N → Vec F S128x128 .f32 × Vec F S128x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first step. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle step, over what the point before left. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before position `n`: before the first point the accumulator is at anything; afterwards at what the point before left.
    Beside it ride the second kernel's two staging buffers at anything and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f)) ∗ (∃ r, prngReg c r)) := by
  cases n with
  | zero => exact absurd rfl hz
  | succ n => rfl

/-! ## The proof data -/

/-- The first kernel's proof data over the entry contents `V`: each input's buffer keeps its block, the output's holds
    `outsAt0`'s first component, the invariant is `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; `t mod 16` says which case the point is in; the invariant
    hands the body the accumulator at what the point before left (at anything before the first point) and takes it back
    at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    by_cases hz : t.val = 0
    · rw [PhiS_castSucc V c t, PhiS_zero V c _ _ hz, PhiA0_eq]
      iintro ⟨⟨⟨HS0, Hr1, Hr2⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr1 Hr2 Hg]
      · isplitl [HS0 Hr1 Hr2]
        · isplitl [HS0]
          · unfold owns; iexists _; isplitr
            swap; · iexact HS0
            ipureintro; exact View.read_writes_of_cover _ _ _ _ _ (scover0_A_0 c _ _ _ _ _ _ _ _ _ _ _ _ _)
          isplitl [Hr1]; · iexact Hr1
          iexact Hr2
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hr1, Hr2⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr1 Hr2 Hg]
      · isplitl [HS0 Hr1 Hr2]
        · isplitl [HS0]
          · unfold owns; iexists _; isplitr
            swap; · iexact HS0
            ipureintro; exact View.read_writes_of_cover _ _ _ _ _ (scover0_A_0 c _ _ _ _ _ _ _ _ _ _ _ _ _)
          isplitl [Hr1]; · iexact Hr1
          iexact Hr2
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS_castSucc V c t, PhiS_pos V c _ _ hz]
      iintro ⟨⟨⟨HS0, Hr1, Hr2⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr1 Hr2 Hg]
      · isplitl [HS0 Hr1 Hr2]
        · isplitl [HS0]
          · unfold owns; iexists _; isplitr
            swap; · iexact HS0
            ipureintro; exact View.read_writes_of_cover _ _ _ _ _ (scover0_C_0 c _ _ _ _ _ _ _ _ _ _ _ _ _ _)
          isplitl [Hr1]; · iexact Hr1
          iexact Hr2
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS_castSucc V c t, PhiS_pos V c _ _ hz]
      iintro ⟨⟨⟨HS0, Hr1, Hr2⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr1 Hr2 Hg]
      · isplitl [HS0 Hr1 Hr2]
        · isplitl [HS0]
          · unfold owns; iexists _; isplitr
            swap; · iexact HS0
            ipureintro; exact View.read_writes_of_cover _ _ _ _ _ (scover0_B_0 c _ _ _ _ _ _ _ _ _ _ _ _ _ _)
          isplitl [Hr1]; · iexact Hr1
          iexact Hr2
        iexact Hg
      isplitl [Ho]; · iexact Ho
      isplitl [H0]; · iexact H0
      isplitl [H1]; · iexact H1
      iexists _; iexact H2

/-- The body obligation of the first kernel's pipeline. -/
theorem body_obligation0 (c : Dev nD) : BodyObligation (dat0 (F := F) V c) (defs₀ (F := F)) Variants.none () Set.univ := fun t => by
  rw [bigSep_W0, bigSep_W0]
  exact sound_body0 V c t

/-- What the region's entry hands over is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the same back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr1, Hr2⟩, Hg⟩
  isplitl [HS0 Hr1 Hr2]
  · isplitl [HS0]; · iexists _; iexact HS0
    isplitl [Hr1]; · iexact Hr1
    iexact Hr2
  iexact Hg

end

end Cert.KernelIdeal.Hand

end
-- ==== Proof.KernelIdealR1.lean ====
/-
  The second kernel (the loss of the 256 × 256 joint matrix) as one grid point: it loads its whole input block, computes
  the scalar loss from it, and stores that into its 1 × 1 output block.  Its only store is one whole-block piece, so
  after the body the output's staging buffer holds the loss payload of the input block, whatever it held before.
-/
import proofs.«147790_j71159018160383_1_alg».proof.Proof.Gen.KernelIdeal.Launch
import proofs.«147790_j71159018160383_1_alg».proof.Proof.Gen.KernelIdeal.Skeleton
import proofs.«147790_j71159018160383_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at the one grid point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds its block (fetched at the point, never cut, never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 256 × 256 input block and the whole 1 × 1 output block, as the body addresses them. -/
abbrev r1_0 : Rect S256x256 := Rect.unit (s := S256x256) ![0, 0] S256x256.size inb_S256x256_S256x256_0_0
abbrev r1_1 : Rect S1x1 := Rect.unit (s := S1x1) ![0, 0] S1x1.size inb_S1x1_S1x1_0_0

/-- The output's staging buffer after the body: the loss payload of the loaded input block, stored whole. -/
def out1_1 (x0 : Vec F S256x256 .f32) : Vec F S1x1 .f32 :=
  View.canon [⟨r1_1, k1_pay1 (View.ld x0 r1_0)⟩]

/-- The one store covers the 1 × 1 buffer. -/
theorem cover1_1 (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

set_option maxHeartbeats 1000000 in
/-- The body on whole staging memrefs: the input's at `x0` is handed back untouched, the output's (entered at anything; the
    body also reads it once, into a value it never uses) ends at `out1_1 x0`. -/
theorem sound_kernel1 (c : Dev nD) (E : Set ℕ) (i : grid1.Coords) (arg1 : Memref sig .tc .vmem S256x256 .f32) (harg1 : arg1.IsWhole) (arg2 : Memref sig .tc .vmem S1x1 .f32) (harg2 : arg2.IsWhole)
    (x0 : Vec F S256x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__post_kernel i arg1 harg1 arg2 harg2) K := by
  simp only [cc1__post_kernel_eq_skeleton]; unfold cc1__post_kernel_skel
  simp only [k1_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The second kernel's proof data over the entry contents `V`: the input's buffer keeps its block, the output's ends at the
    loss payload of that block; the invariant is the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at the point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the second kernel's pipeline. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KernelIdealRun.lean ====
/-
  The whole program, from the launch to the return: the two kernels' regions one after the other, then the one host
  operation that reshapes the 1 × 1 result to a scalar.

  The buffers' contents are followed through the three items.  At launch every buffer holds the launch memory.  After the
  first kernel its output array (the 256 × 256 joint matrix) holds what its sixty-four write-backs leave, and every other
  buffer is unchanged; after the second kernel its 1 × 1 output holds what its one write-back leaves; the reshape then
  writes the scalar result.  Neither kernel writes an argument array (each reads them through input windows or not at
  all) and the reshape writes only its own result, so the arguments end as launched.  The theorem `run` says that every
  weakly fair execution terminates, faults nowhere, and ends with every unscoped buffer at the last of these contents.
-/
import proofs.«147790_j71159018160383_1_alg».proof.Proof.KernelIdealR0
import proofs.«147790_j71159018160383_1_alg».proof.Proof.KernelIdealR1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same read at the TensorCore's references: what the first kernel's proof data take. -/
abbrev U0 : (c : Dev nD) → (b : Ref sig .tc) → Buf (Elt F) ((c : Thread nD τ).loc b) := fun c b => W0 m c b
/-- After the first kernel: its arrays at what the pipeline leaves, every other buffer as before. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same at the TensorCore's references: what the second kernel's proof data take. -/
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After the second kernel. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- After the reshape. -/
abbrev W3 : Dev nD → Valuation τ sig (Elt F) := fun c => StableHlo.after hostOps2 (W2 m c)

/-- The reshape allocates nothing. -/
theorem hostOps2_fresh : (hostOps2 : List (HloOp τ sig (Elt F))).Forall fun op => op.fresh = ∅ := by
  simp only [List.Forall]; repeat' constructor

/-- The reshape writes only the scalar result, so any other buffer passes through it. -/
theorem W3_of_ne (c : Dev nD) (b : Ref sig .tc) (hb : b ≠ main_v2) : W3 m c (Proc.devRef .tc b) = W2 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The first argument ends as launched: the reshape and the second kernel do not touch it, the first kernel only reads it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (U0 m) c).arrAt_in 0 rfl _).trans (A_eq0 (U0 m) c 0))
    _ = m ((c : Thread nD τ).loc main_arg0) := rfl

/-- The second argument likewise. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 1).trans (((dat0 (U0 m) c).arrAt_in 1 rfl _).trans (A_eq0 (U0 m) c 1))
    _ = m ((c : Thread nD τ).loc main_arg1) := rfl

/-! ## The proof data of both pipelines, and what rides beside the buffers -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)

/-- The reshape as a segment over every unscoped buffer from the contents `W2`. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The two regions as segments -/

set_option backward.isDefEq.respectTransparency.types false in
/-- The first kernel's region: entered with every unscoped buffer at the launch contents, left with them at `W1`.  Its
    arrays are split out of the unscoped buffers at entry and put back at exit; the generator register and the scoped rest
    enter the invariant (whose first state says nothing of the accumulator) and come back (the accumulator's contents
    forgotten); nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U0 m) c)
    unfold Pipeline.ΦA
    iintro ⟨Hp, -, Hr⟩
    isplitl [Hr]; · iexact Hr
    iexact Hp
  hout c := by
    rw [Pipeline.ownSems0_none]
    refine BIBase.Entails.trans (hout0 (U0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered with every unscoped buffer at `W1`, left with them at `W2`; its invariant is the
    scoped rest and the generator register, untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its three items, and the launch -/

abbrev segs : List (Pipeline.Seg (pcfgs (F := F)) adm (pdats m) () defs₀ 𝒱₀ L lv) :=
  [ .region (reg0 m), .region (reg1 m), .host (hseg2 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final memory holds every unscoped buffer at the contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every execution terminates, faults nowhere, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run m ρ)

end Cert.KernelIdeal.Hand

end
-- ==== Proof.Spec.lean ====
/-
  The mathematics both programs compute, over the extended reals, stated once and naming no program.

  From two tall matrices `a`, `b` (131072 rows, 256 columns) the joint matrix is the Gram product
  `P i j = ∑ₙ a n i · b n j`.  It is symmetrised, `S i j = (P i j + P j i) · ½`, normalised by its grand total,
  `N i j = S i j / ∑ᵢ ∑ⱼ S i j`, and its two marginals are taken: the row sums `∑ⱼ N i j` and the column sums
  `∑ᵢ N i j`.  Each of the three is clamped from below at `ε = 2⁻⁵²`, and the loss is the grand total of
  `(0 − N̂ i j) · ((log N̂ i j − 10 · log ĉ j) − 10 · log r̂ i)`, the hats denoting the clamped values.
  The four constants are kept as the words the programs print: the same word on both sides is never evaluated.
-/
import Idealize.ShloMosaic.PureOps.Ideal
import Idealize.ShloMosaic.Lib.ValueIdx

noncomputable section

namespace Cert.Spec

open Idealize.ShloMosaic

/-- One half, as the kernel's word for it. -/
def half : EReal := Ideal.ofBits .f32 0x3F000000#32
/-- Two, as the reference's word for it. -/
def two : EReal := Ideal.ofBits .f32 0x40000000#32
/-- The clamp `2⁻⁵²`, the same word in both programs. -/
def eps : EReal := Ideal.ofBits .f32 0x25800000#32
/-- Ten (`α + 1`), the same word in both programs. -/
def ten : EReal := Ideal.ofBits .f32 0x41200000#32

/-- The Gram product of two tall matrices: entry `(i, j)` sums the products of column `i` of the first with
    column `j` of the second over all 131072 rows. -/
def gram (a b : Fin 131072 → Fin 256 → EReal) (i j : Fin 256) : EReal := ∑ n : Fin 131072, a n i * b n j

/-- A square matrix made symmetric: the mean of an entry and its mirror image. -/
def sym (P : Fin 256 → Fin 256 → EReal) (i j : Fin 256) : EReal := (P i j + P j i) * half

/-- The grand total of a square matrix, rows first. -/
def total (S : Fin 256 → Fin 256 → EReal) : EReal := ∑ i : Fin 256, ∑ j : Fin 256, S i j

/-- A square matrix divided by its grand total. -/
def nrm (S : Fin 256 → Fin 256 → EReal) (i j : Fin 256) : EReal := Ideal.div (S i j) (total S)

/-- The row marginal: the sum of row `i`. -/
def rowm (N : Fin 256 → Fin 256 → EReal) (i : Fin 256) : EReal := ∑ j : Fin 256, N i j

/-- The column marginal: the sum of column `j`. -/
def colm (N : Fin 256 → Fin 256 → EReal) (j : Fin 256) : EReal := ∑ i : Fin 256, N i j

/-- One entry's contribution to the loss, every probability clamped from below at `ε`. -/
def term (N : Fin 256 → Fin 256 → EReal) (i j : Fin 256) : EReal :=
  (0 - max (N i j) eps)
    * ((Ideal.log (max (N i j) eps) - ten * Ideal.log (max (colm N j) eps)) - ten * Ideal.log (max (rowm N i) eps))

/-- The contrastive loss of a joint matrix: symmetrise, normalise, and total the entries' contributions. -/
def lossOf (P : Fin 256 → Fin 256 → EReal) : EReal :=
  ∑ i : Fin 256, ∑ j : Fin 256, term (nrm (sym P)) i j

end Cert.Spec

end
-- ==== Proof.PostValue.lean ====
/-
  The second kernel's arithmetic, read as mathematics. From a 256 by 256 block P the kernel forms the mean of P and its
  transpose, S i j = (P i j + P j i) · ½; the grand total of S, rows first; the quotient N i j = S i j / total; the row
  sums and the column sums of N, each kept with a unit axis; the three clamps from below at 2⁻⁵²; and the grand total,
  rows first, of (0 − N̂ i j) · ((log N̂ i j − 10 · log ĉ j) − 10 · log r̂ i). Every step is a pointwise operation, a
  sum along one axis, or a change of layout that moves no value; read at coordinates, each is the corresponding step
  of the specification, in the same order, so no algebraic law of the extended reals is used: only that a column
  [a, 1], a row [1, a] and a single entry [1, 1] read where their one long coordinate says, and that a sum along one
  axis of a matrix is the sum over that axis's coordinate.
-/
import proofs.«147790_j71159018160383_1_alg».proof.Proof.Gen.KernelIdeal.Skeleton
import proofs.«147790_j71159018160383_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.PostValue

open Idealize.ShloMosaic Idealize.ShloMosaic.ValueIdx Cert.KernelIdeal

/-! ## Layout operations of a keepdims sum, read at coordinates -/

section Layout
variable {α : Type}

/-- A vector [a] viewed as a column [a, 1] reads, at (i, u), the vector at i, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A single entry [1, 1] spread over a matrix [a, b] reads that entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A column [a, 1] spread over a matrix [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along one axis, read at coordinates -/

/-- The sum of a matrix along its second axis, at row p: the sum of row p. -/
theorem sum_axis1_apply (x : FVec Ideal S256x256 .f32) (h : S256x256.Reduces [1] S256) (hφ : FKind.Formats .f32)
    (hacc : (0x00000000#32 : BitVec 32) = 0x00000000#32) (p : Fin 256) :
    multiReduction .add [1] S256 x 0x00000000#32 h hφ hacc (ix1 p) = ∑ q : Fin 256, x (ix2 p q) := by
  refine (Ideal.multiReduction_add_single x 0x00000000#32 h hφ hacc (ix1 p)).trans ?_
  show ∑ q : Fin 256, x (h.lift (ix1 p) q) = _
  refine Finset.sum_congr rfl fun q _ => congrArg x ?_
  funext c
  match c with
  | ⟨0, _⟩ => rfl
  | ⟨1, _⟩ => rfl

/-- The sum of a matrix along its first axis, at column q: the sum of column q. -/
theorem sum_axis0_apply (x : FVec Ideal S256x256 .f32) (h : S256x256.Reduces [0] S256) (hφ : FKind.Formats .f32)
    (hacc : (0x00000000#32 : BitVec 32) = 0x00000000#32) (q : Fin 256) :
    multiReduction .add [0] S256 x 0x00000000#32 h hφ hacc (ix1 q) = ∑ p : Fin 256, x (ix2 p q) := by
  refine (Ideal.multiReduction_add_single x 0x00000000#32 h hφ hacc (ix1 q)).trans ?_
  show ∑ p : Fin 256, x (h.lift (ix1 q) p) = _
  refine Finset.sum_congr rfl fun p _ => congrArg x ?_
  funext c
  match c with
  | ⟨0, _⟩ => rfl
  | ⟨1, _⟩ => rfl

/-- The sum of a column [256, 1] along its long axis: the sum of its entries. -/
theorem sum_col_apply (x : FVec Ideal S256x1 .f32) (h : S256x1.Reduces [0] S1) (hφ : FKind.Formats .f32)
    (hacc : (0x00000000#32 : BitVec 32) = 0x00000000#32) (u : Fin 1) :
    multiReduction .add [0] S1 x 0x00000000#32 h hφ hacc (ix1 u) = ∑ p : Fin 256, x (ix2 p u) := by
  refine (Ideal.multiReduction_add_single x 0x00000000#32 h hφ hacc (ix1 u)).trans ?_
  show ∑ p : Fin 256, x (h.lift (ix1 u) p) = _
  refine Finset.sum_congr rfl fun p _ => congrArg x ?_
  funext c
  match c with
  | ⟨0, _⟩ => rfl
  | ⟨1, _⟩ => rfl

/-! ## The kernel's stages, each a function of a matrix -/

/-- A 256 by 256 matrix of extended reals, as the kernel holds it. -/
abbrev Mat : Type := FVec Ideal S256x256 .f32

/-- Pointwise logarithm, read at an index. -/
theorem log_apply {s : Shape} {φ : FTy} (x : FVec Ideal s φ) (i : s.Idx) : log x i = Ideal.log (x i) := rfl

/-- The row sums, kept as a column. -/
def rowK (x : Mat) : FVec Ideal S256x1 .f32 :=
  shapeCast S256x1 (multiReduction .add [1] S256 x 0x00000000#32 Gen.reduces_S256x256_S256 (.inl rfl) rfl)
    Gen.shapeCasts_S256_S256x1

/-- The column sums, kept as a row. -/
def colK (x : Mat) : FVec Ideal S1x256 .f32 :=
  shapeCast S1x256 (multiReduction .add [0] S256 x 0x00000000#32 Gen.reduces_S256x256_S256_2 (.inl rfl) rfl)
    Gen.shapeCasts_S256_S1x256

/-- The grand total, rows first, kept as a one by one matrix. -/
def totK (x : Mat) : FVec Ideal S1x1 .f32 :=
  shapeCast S1x1 (multiReduction .add [0] S1 (rowK x) 0x00000000#32 Gen.reduces_S256x1_S1 (.inl rfl) rfl)
    Gen.shapeCasts_S1_S1x1

/-- The mean of a matrix and its transpose. -/
def symK (x : Mat) : Mat :=
  mulf (addf x (transpose S256x256 [1, 0] x Gen.transposes_S256x256_p1_0_S256x256))
    (broadcast S256x256 (Scalar.ofBits .f32 0x3F000000#32))

/-- A matrix divided by its grand total. -/
def nrmK (x : Mat) : Mat := divf x (broadcastTo S256x256 (totK x) Gen.broadcasts_S1x1_S256x256)

/-- The matrix of the loss's contributions, from the normalised matrix. -/
def termK (n : Mat) : Mat :=
  mulf
    (subf (broadcast S256x256 (Scalar.ofBits .f32 0x00000000#32))
      (maximumf n (broadcast S256x256 (Scalar.ofBits .f32 0x25800000#32))))
    (subf
      (subf (log (maximumf n (broadcast S256x256 (Scalar.ofBits .f32 0x25800000#32))))
        (broadcastTo S256x256
          (mulf (broadcast S1x256 (Scalar.ofBits .f32 0x41200000#32))
            (log (maximumf (colK n) (broadcast S1x256 (Scalar.ofBits .f32 0x25800000#32)))))
          Gen.broadcasts_S1x256_S256x256))
      (broadcastTo S256x256
        (mulf (broadcast S256x1 (Scalar.ofBits .f32 0x41200000#32))
          (log (maximumf (rowK n) (broadcast S256x1 (Scalar.ofBits .f32 0x25800000#32)))))
        Gen.broadcasts_S256x1_S256x256))

/-- The kernel's value is the grand total of the contributions of the normalised symmetrised block. -/
theorem pay_eq (v0 : Vec Ideal S256x256 .f32) :
    Gen.k1_pay1 (F := Ideal) v0
      = totK (termK (nrmK (symK (shapeCast S256x256 v0 Gen.shapeCasts_S256x256_S256x256)))) := rfl

/-! ## Each stage read at coordinates -/

theorem rowK_apply (x : Mat) (p : Fin 256) (u : Fin 1) : rowK x (ix2 p u) = ∑ q : Fin 256, x (ix2 p q) :=
  (shapeCast_a_a1_apply _ _ p u).trans (sum_axis1_apply x _ _ _ p)

theorem colK_apply (x : Mat) (u : Fin 1) (q : Fin 256) : colK x (ix2 u q) = ∑ p : Fin 256, x (ix2 p q) :=
  (shapeCast_a_1a_apply _ _ u q).trans (sum_axis0_apply x _ _ _ q)

theorem totK_apply (x : Mat) (a b : Fin 1) :
    totK x (ix2 a b) = ∑ p : Fin 256, ∑ q : Fin 256, x (ix2 p q) :=
  ((shapeCast_a_1a_apply _ _ a b).trans (sum_col_apply (rowK x) _ _ _ b)).trans
    (Finset.sum_congr rfl fun p _ => rowK_apply x p b)

theorem symK_apply (x : Mat) (p q : Fin 256) :
    symK x (ix2 p q) = (x (ix2 p q) + x (ix2 q p)) * Cert.Spec.half := by
  show (x (ix2 p q) + transpose S256x256 [1, 0] x _ (ix2 p q)) * Cert.Spec.half = _
  rw [transpose_ix2_apply]

theorem nrmK_apply (x : Mat) (p q : Fin 256) :
    nrmK x (ix2 p q) = Ideal.div (x (ix2 p q)) (∑ i : Fin 256, ∑ j : Fin 256, x (ix2 i j)) := by
  show Ideal.div (x (ix2 p q)) (broadcastTo S256x256 (totK x) _ (ix2 p q)) = _
  rw [broadcastTo_11_ab_apply, totK_apply]

/-- One contribution: every probability clamped from below, the column marginal read off the row of column sums and
    the row marginal off the column of row sums. -/
theorem termK_apply (n : Mat) (p q : Fin 256) :
    termK n (ix2 p q)
      = (0 - max (n (ix2 p q)) Cert.Spec.eps)
          * ((Ideal.log (max (n (ix2 p q)) Cert.Spec.eps)
                - Cert.Spec.ten * Ideal.log (max (∑ i : Fin 256, n (ix2 i q)) Cert.Spec.eps))
              - Cert.Spec.ten * Ideal.log (max (∑ j : Fin 256, n (ix2 p j)) Cert.Spec.eps)) := by
  show (Ideal.ofBits .f32 0x00000000#32 - max (n (ix2 p q)) Cert.Spec.eps)
      * ((Ideal.log (max (n (ix2 p q)) Cert.Spec.eps)
            - broadcastTo S256x256
                (mulf (broadcast S1x256 (Scalar.ofBits .f32 0x41200000#32))
                  (log (maximumf (colK n) (broadcast S1x256 (Scalar.ofBits .f32 0x25800000#32)))))
                Gen.broadcasts_S1x256_S256x256 (ix2 p q))
          - broadcastTo S256x256
              (mulf (broadcast S256x1 (Scalar.ofBits .f32 0x41200000#32))
                (log (maximumf (rowK n) (broadcast S256x1 (Scalar.ofBits .f32 0x25800000#32)))))
              Gen.broadcasts_S256x1_S256x256 (ix2 p q)) = _
  rw [broadcastTo_1b_ab_apply, broadcastTo_a1_ab_apply, Ideal.ofBits_zero_f32]
  show (0 - max (n (ix2 p q)) Cert.Spec.eps)
      * ((Ideal.log (max (n (ix2 p q)) Cert.Spec.eps)
            - Cert.Spec.ten * Ideal.log (max (colK n (ix2 (0 : Fin 1) q)) Cert.Spec.eps))
          - Cert.Spec.ten * Ideal.log (max (rowK n (ix2 p (0 : Fin 1))) Cert.Spec.eps)) = _
  rw [colK_apply, rowK_apply]

/-- The contributions of a matrix that reads, entry by entry, as a given family are the specification's. -/
theorem termK_eq (n : Mat) (N : Fin 256 → Fin 256 → EReal) (hN : ∀ i j, n (ix2 i j) = N i j) (p q : Fin 256) :
    termK n (ix2 p q) = Cert.Spec.term N p q := by
  rw [termK_apply]
  unfold Cert.Spec.term Cert.Spec.colm Cert.Spec.rowm
  simp only [hN]

/-- The normalised symmetrised block reads, entry by entry, as the specification's normalised symmetrised family. -/
theorem nrm_sym_eq (x : Mat) (i j : Fin 256) :
    nrmK (symK x) (ix2 i j) = Cert.Spec.nrm (Cert.Spec.sym fun a b => x (ix2 a b)) i j := by
  rw [nrmK_apply]
  unfold Cert.Spec.nrm Cert.Spec.total
  simp only [symK_apply]
  rfl

/-- THE SECOND KERNEL'S VALUE: the loss of the loaded block, read as a family over its two coordinates. -/
theorem post_eq (v0 : Vec Ideal S256x256 .f32) (y : S1x1.Idx) :
    Gen.k1_pay1 (F := Ideal) v0 y = Cert.Spec.lossOf (fun i j => v0 (ix2 i j)) := by
  obtain ⟨a, b, rfl⟩ : ∃ (a b : Fin 1), y = ix2 a b := ⟨y 0, y 1, eq_ix2 y⟩
  rw [pay_eq, shapeCast_self, totK_apply]
  unfold Cert.Spec.lossOf
  exact Finset.sum_congr rfl fun i _ => Finset.sum_congr rfl fun j _ =>
    termK_eq _ _ (nrm_sym_eq v0) i j

end Cert.PostValue

end
-- ==== Proof.MatmulValue.lean ====
/-
  The accumulation kernel's two stored values, read one entry at a time, and the splitting of a long sum into
  equal chunks.

  The kernel keeps a 128 × 128 accumulator.  At the first step of the contraction it stores the zero matrix; at
  every step it stores the accumulator plus the product of two tall blocks contracted over their common row axis,
  whose entry (p, q) is the sum over the 8192 rows r of x r p · y r q.  Narrowing the blocks to a shorter float
  format does nothing over the extended reals, and a reshape to the same shape is the identity.  Summing
  131072 terms is summing 16 consecutive chunks of 8192 terms each.
-/
import proofs.«147790_j71159018160383_1_alg».proof.Proof.Gen.KernelIdeal.Skeleton
import Idealize.ShloMosaic.PureOps.Ideal.Laws
import Idealize.ShloMosaic.Lib.ValueIdx
import Idealize.ShloMosaic.Lib.Pipeline.Value
import Mathlib.Logic.Equiv.Fin.Basic
import Mathlib.Algebra.BigOperators.Group.Finset.Basic

noncomputable section

namespace Cert.MatmulValue

open Cert.KernelIdeal Cert.KernelIdeal.Gen Idealize.ShloMosaic Idealize.SL.Sem
open Idealize.ShloMosaic.ValueIdx (ix2)

/-! ## The contraction's operand indices -/

/-- On the contracted (row) axis the left operand is read at the contraction position. -/
theorem lhs_axis0 (i : S128x128.Idx) (c : dot_S8192x128_S8192x128_S128x128_0_0_1_1_n_n.contr.Idx) :
    (dot_S8192x128_S8192x128_S128x128_0_0_1_1_n_n.lhsIdx i c 0).val = (c ⟨0, by decide⟩).val :=
  dot_S8192x128_S8192x128_S128x128_0_0_1_1_n_n.lhsIdx_val_of_single rfl i c

/-- On its free (column) axis the left operand is read at the output's row. -/
theorem lhs_axis1 (i : S128x128.Idx) (c : dot_S8192x128_S8192x128_S128x128_0_0_1_1_n_n.contr.Idx) :
    (dot_S8192x128_S8192x128_S128x128_0_0_1_1_n_n.lhsIdx i c 1).val = (i 0).val := by
  unfold DotDims.lhsIdx
  rw [dif_neg (show ¬(1 : Fin S8192x128.rank) ∈ dot_S8192x128_S8192x128_S128x128_0_0_1_1_n_n.lhsBatch by decide), dif_pos (show (1 : Fin S8192x128.rank) ∈ dot_S8192x128_S8192x128_S128x128_0_0_1_1_n_n.lhsNonContracting by decide)]
  rfl

/-- On the contracted (row) axis the right operand is read at the contraction position. -/
theorem rhs_axis0 (i : S128x128.Idx) (c : dot_S8192x128_S8192x128_S128x128_0_0_1_1_n_n.contr.Idx) :
    (dot_S8192x128_S8192x128_S128x128_0_0_1_1_n_n.rhsIdx i c 0).val = (c ⟨0, by decide⟩).val :=
  dot_S8192x128_S8192x128_S128x128_0_0_1_1_n_n.rhsIdx_val_of_single rfl i c

/-- On its free (column) axis the right operand is read at the output's column. -/
theorem rhs_axis1 (i : S128x128.Idx) (c : dot_S8192x128_S8192x128_S128x128_0_0_1_1_n_n.contr.Idx) :
    (dot_S8192x128_S8192x128_S128x128_0_0_1_1_n_n.rhsIdx i c 1).val = (i 1).val := by
  unfold DotDims.rhsIdx
  rw [dif_neg (show ¬(1 : Fin S8192x128.rank) ∈ dot_S8192x128_S8192x128_S128x128_0_0_1_1_n_n.rhsBatch by decide), dif_pos (show (1 : Fin S8192x128.rank) ∈ dot_S8192x128_S8192x128_S128x128_0_0_1_1_n_n.rhsNonContracting by decide)]
  rfl

/-- The block product into a zero accumulator, at entry (p, q): the sum over the rows r of x r p · y r q. -/
theorem product_apply (x y : FVec Ideal S8192x128 .bf16) (p q : Fin 128) :
    matmul dot_S8192x128_S8192x128_S128x128_0_0_1_1_n_n none x y (constant (F := Ideal) S128x128 .f32 0x00000000#32) (ix2 p q)
      = ∑ r : Fin 8192, x (ix2 r p) * y (ix2 r q) := by
  simp only [matmul]
  rw [Ideal.matmul_constant_zero_apply, ← Equiv.sum_comp (ValueIdx.contrEquiv1 dot_S8192x128_S8192x128_S128x128_0_0_1_1_n_n 8192 rfl rfl).symm]
  refine Finset.sum_congr rfl fun r _ => ?_
  have hr := ValueIdx.contrEquiv1_symm_val dot_S8192x128_S8192x128_S128x128_0_0_1_1_n_n 8192 rfl rfl r
  have el : dot_S8192x128_S8192x128_S128x128_0_0_1_1_n_n.lhsIdx (ix2 p q) ((ValueIdx.contrEquiv1 dot_S8192x128_S8192x128_S128x128_0_0_1_1_n_n 8192 rfl rfl).symm r) = ix2 r p := funext fun a => Fin.ext (by
    match a with
    | ⟨0, _⟩ => exact (lhs_axis0 _ _).trans hr
    | ⟨1, _⟩ => exact lhs_axis1 _ _)
  have er : dot_S8192x128_S8192x128_S128x128_0_0_1_1_n_n.rhsIdx (ix2 p q) ((ValueIdx.contrEquiv1 dot_S8192x128_S8192x128_S128x128_0_0_1_1_n_n 8192 rfl rfl).symm r) = ix2 r q := funext fun a => Fin.ext (by
    match a with
    | ⟨0, _⟩ => exact (rhs_axis0 _ _).trans hr
    | ⟨1, _⟩ => exact rhs_axis1 _ _)
  rw [el, er]

/-! ## The two stored values -/

/-- The value stored at the first step of the contraction is the zero matrix. -/
theorem zero_eq (p q : Fin 128) : k0_pay1 (F := Ideal) (ix2 p q) = 0 := by
  unfold k0_pay1
  rw [shapeCast_self]
  exact Ideal.ofBits_zero_f32

/-- The value stored at every step: the accumulator plus the two blocks' product over their 8192 rows. -/
theorem step_eq (v3 v5 : Vec Ideal S8192x128 .f32) (v7 : Vec Ideal S128x128 .f32) (p q : Fin 128) :
    k0_pay2 (F := Ideal) v3 v5 v7 (ix2 p q) = v7 (ix2 p q) + ∑ r : Fin 8192, v3 (ix2 r p) * v5 (ix2 r q) := by
  unfold k0_pay2
  rw [shapeCast_self, ValueIdx.addf_apply, product_apply]
  rfl

/-! ## A long sum in chunks -/

/-- A sum of 131072 terms is the sum of 16 consecutive chunks of 8192 terms: term number n = 8192 k + r belongs
    to chunk k at offset r. -/
theorem sum_chunks (f : Fin 131072 → EReal) :
    ∑ n : Fin 131072, f n = ∑ k : Fin 16, ∑ r : Fin 8192, f ⟨k.val * 8192 + r.val, by have := k.isLt; have := r.isLt; omega⟩ := by
  rw [← Equiv.sum_comp (finProdFinEquiv : Fin 16 × Fin 8192 ≃ Fin 131072) f, Fintype.sum_prod_type]
  refine Finset.sum_congr rfl fun k _ => Finset.sum_congr rfl fun r _ => congrArg f (Fin.ext ?_)
  show r.val + 8192 * k.val = k.val * 8192 + r.val
  omega

end Cert.MatmulValue

end
-- ==== Proof.GramAcc.lean ====
/-
  The first kernel's accumulator, read as a value over the extended reals.

  Point `n` of the grid has block row `n / 32`, block column `(n / 16) mod 2` and reduction step `n mod 16`.  After it
  the accumulator's entry `(p, q)` is the partial Gram sum over the first `n mod 16 + 1` chunks of 8192 rows,
  of column `128 · (n / 32) + p` of the first matrix against column `128 · ((n / 16) mod 2) + q` of the second;
  at a last step (`n mod 16 = 15`) the output's staging buffer holds a copy of the accumulator.
-/
import proofs.«147790_j71159018160383_1_alg».proof.Proof.KernelIdealR0
import proofs.«147790_j71159018160383_1_alg».proof.Proof.MatmulValue
import Idealize.ShloMosaic.Lib.Pipeline.Value
import Idealize.ShloMosaic.Lib.ValueIdx
import Idealize.ShloMosaic.Lib.Tactic

noncomputable section

namespace Cert.KernelIdeal.GramValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two argument matrices as the region finds them, as plain functions of row and column. -/
def matA (c : Dev nD) : Fin 131072 → Fin 256 → EReal := fun n k => V c main_arg0 (ix2 n k)
def matB (c : Dev nD) : Fin 131072 → Fin 256 → EReal := fun n k => V c main_arg1 (ix2 n k)

/-- Row `r` of chunk `k` (chunks of 8192 rows). -/
def rowOf (s : ℕ) (hs : s < 16) (k : Fin (s + 1)) (r : Fin 8192) : Fin 131072 :=
  ⟨k.val * 8192 + r.val, by have := k.isLt; have := r.isLt; omega⟩

/-- Column `p` of block column `I` (blocks of 128 columns). -/
def colOf (I : ℕ) (hI : I < 2) (p : Fin 128) : Fin 256 := ⟨I * 128 + p.val, by have := p.isLt; omega⟩

/-- The Gram sum over the first `s + 1` chunks of rows. -/
def partialGram (a b : Fin 131072 → Fin 256 → EReal) (s : ℕ) (hs : s < 16) (i j : Fin 256) : EReal :=
  ∑ k : Fin (s + 1), ∑ r : Fin 8192, a (rowOf s hs k r) i * b (rowOf s hs k r) j

theorem lt64 {n : ℕ} (hn : n < cfg0.N) : n < 64 := lt_of_lt_of_eq hn (show cfg0.N = 64 from N_0)

/-! ## What each case's found pieces are, as values

At every step the body stores one value into the whole accumulator, after (at a first step) the zero fill; at a last
step it then copies the accumulator, read back, into the whole output block.  A store through the whole block leaves its
payload, and a load through the whole block of a whole buffer reads the buffer. -/

section pieces
variable {F : FTy → Type} [FloatOps F]

/-- The whole-block offsets are zero on both axes. -/
theorem hz : (![0, 0] : Fin 2 → Nat) = fun _ => 0 := funext fun a => by fin_cases a <;> rfl

/-- A first step leaves in the accumulator the step's stored value over the zero fill. -/
theorem sout_A (c : Dev nD) (i : grid0.Coords) (a3 : Memref sig .tc .vmem S8192x128 .f32) (h3 : a3.IsWhole) (a4 : Memref sig .tc .vmem S8192x128 .f32) (h4 : a4.IsWhole) (a5 : Memref sig .tc .vmem S128x128 .f32) (h5 : a5.IsWhole) (a6 : Memref sig .tc .vmem S128x128 .f32) (h6 : a6.IsWhole) (hc0 : cond0_0 i) (hc1 : ¬cond0_1 i)
    (x0 x1 : Vec F S8192x128 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S128x128) hz, View.readCov_unit_zero (S := S128x128) _ hz]
  simp only [View.readAt_eq_ld, h3.read_unread, h4.read_unread, View.ld_unit_zero (S := S8192x128) hz]

/-- A middle step leaves in the accumulator the step's stored value over what it held. -/
theorem sout_B (c : Dev nD) (i : grid0.Coords) (a3 : Memref sig .tc .vmem S8192x128 .f32) (h3 : a3.IsWhole) (a4 : Memref sig .tc .vmem S8192x128 .f32) (h4 : a4.IsWhole) (a5 : Memref sig .tc .vmem S128x128 .f32) (h5 : a5.IsWhole) (a6 : Memref sig .tc .vmem S128x128 .f32) (h6 : a6.IsWhole) (hc0 : ¬cond0_0 i) (hc1 : ¬cond0_1 i)
    (x0 x1 : Vec F S8192x128 .f32) (xs0 : Vec F S128x128 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S8192x128) hz, View.ld_unit_zero (S := S128x128) hz]

/-- A last step leaves in the accumulator the step's stored value over what it held, -/
theorem sout_C (c : Dev nD) (i : grid0.Coords) (a3 : Memref sig .tc .vmem S8192x128 .f32) (h3 : a3.IsWhole) (a4 : Memref sig .tc .vmem S8192x128 .f32) (h4 : a4.IsWhole) (a5 : Memref sig .tc .vmem S128x128 .f32) (h5 : a5.IsWhole) (a6 : Memref sig .tc .vmem S128x128 .f32) (h6 : a6.IsWhole) (hc0 : ¬cond0_0 i) (hc1 : cond0_1 i)
    (x0 x1 : Vec F S8192x128 .f32) (xs0 : Vec F S128x128 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S8192x128) hz, View.ld_unit_zero (S := S128x128) hz]

/-- and in the output's staging buffer the same value: the accumulator read back after that store. -/
theorem out_C (c : Dev nD) (i : grid0.Coords) (a3 : Memref sig .tc .vmem S8192x128 .f32) (h3 : a3.IsWhole) (a4 : Memref sig .tc .vmem S8192x128 .f32) (h4 : a4.IsWhole) (a5 : Memref sig .tc .vmem S128x128 .f32) (h5 : a5.IsWhole) (a6 : Memref sig .tc .vmem S128x128 .f32) (h6 : a6.IsWhole) (hc0 : ¬cond0_0 i) (hc1 : cond0_1 i)
    (x0 x1 : Vec F S8192x128 .f32) (xs0 : Vec F S128x128 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S128x128) _ hz]
  simp only [View.readAt_eq_ld, h3.read_unread, h4.read_unread, h6.read_unread, View.ld_unit_zero (S := S8192x128) hz, View.ld_unit_zero (S := S128x128) hz]

end pieces

/-! ## The two input blocks at a point, read off the matrices

Point `t` fetches, of the first matrix, the block of rows `8192 · (t mod 16) …` and columns `128 · (t / 32) …`; of the
second, the same rows and columns `128 · ((t / 16) mod 2) …`.  A block's coordinate in its array is always the block's
index times the block's extent plus the coordinate inside the block. -/

/-- Where each input window's block sits at each point of the grid, decided once over the 64 points. -/
theorem idx_facts : ∀ t : Fin cfg0.N, win0_0.index t (0 : Fin 2) = t.val % 16 ∧ win0_0.index t (1 : Fin 2) = t.val / 32
      ∧ win0_1.index t (0 : Fin 2) = t.val % 16 ∧ win0_1.index t (1 : Fin 2) = (t.val / 16) % 2 :=
  (by decide +kernel : ∀ t : Fin grid0.N, win0_0.index t (0 : Fin 2) = t.val % 16 ∧ win0_0.index t (1 : Fin 2) = t.val / 32
      ∧ win0_1.index t (0 : Fin 2) = t.val % 16 ∧ win0_1.index t (1 : Fin 2) = (t.val / 16) % 2)

/-- The first matrix's block at point `t`, at its literal shape. -/
abbrev ablk (c : Dev nD) (t : Fin cfg0.N) : Vec Ideal S8192x128 .f32 := iblk0 V c 0 t
/-- The second matrix's block at point `t`, at its literal shape. -/
abbrev bblk (c : Dev nD) (t : Fin cfg0.N) : Vec Ideal S8192x128 .f32 := iblk0 V c 1 t

/-- Row `r` of chunk `k`, for a chunk number given as a plain natural. -/
def rowAt (k : ℕ) (hk : k < 16) (r : Fin 8192) : Fin 131072 := ⟨k * 8192 + r.val, by have := r.isLt; omega⟩

/-- Entry `(r, p)` of the first block at point `t` is the first matrix at row `r` of chunk `t mod 16`, column `p` of
    block column `t / 32`. -/
theorem ablk_apply (c : Dev nD) (t : Fin cfg0.N) (r : Fin 8192) (p : Fin 128) :
    ablk V c t (ix2 r p)
      = matA V c (rowAt (t.val % 16) (Nat.mod_lt _ (by decide)) r) (colOf (t.val / 32) (by have := lt64 t.isLt; omega) p) := by
  unfold ablk iblk0 matA rowAt colOf
  rw [View.read_apply]
  show V c main_arg0 _ = V c main_arg0 _
  congr 1
  funext a
  apply Fin.ext
  match a with
  | ⟨0, _⟩ => show win0_0.index t (0 : Fin 2) * 8192 + 1 * r.val = t.val % 16 * 8192 + r.val; rw [(idx_facts t).1]; omega
  | ⟨1, _⟩ => show win0_0.index t (1 : Fin 2) * 128 + 1 * p.val = t.val / 32 * 128 + p.val; rw [(idx_facts t).2.1]; omega

/-- Entry `(r, q)` of the second block at point `t` is the second matrix at the same row, column `q` of block column
    `(t / 16) mod 2`. -/
theorem bblk_apply (c : Dev nD) (t : Fin cfg0.N) (r : Fin 8192) (q : Fin 128) :
    bblk V c t (ix2 r q)
      = matB V c (rowAt (t.val % 16) (Nat.mod_lt _ (by decide)) r) (colOf ((t.val / 16) % 2) (Nat.mod_lt _ (by decide)) q) := by
  unfold bblk iblk0 matB rowAt colOf
  rw [View.read_apply]
  show V c main_arg1 _ = V c main_arg1 _
  congr 1
  funext a
  apply Fin.ext
  match a with
  | ⟨0, _⟩ => show win0_1.index t (0 : Fin 2) * 8192 + 1 * r.val = t.val % 16 * 8192 + r.val; rw [(idx_facts t).2.2.1]; omega
  | ⟨1, _⟩ => show win0_1.index t (1 : Fin 2) * 128 + 1 * q.val = t.val / 16 % 2 * 128 + q.val; rw [(idx_facts t).2.2.2]; omega

/-! ## A partial Gram sum, one chunk at a time -/

/-- One chunk's share of a Gram entry: the products over the chunk's 8192 rows. -/
def chunk (a b : Fin 131072 → Fin 256 → EReal) (k : ℕ) (hk : k < 16) (i j : Fin 256) : EReal :=
  ∑ r : Fin 8192, a (rowAt k hk r) i * b (rowAt k hk r) j

/-- The partial sum is the sum of its chunks' shares. -/
theorem partialGram_eq_chunks (a b : Fin 131072 → Fin 256 → EReal) (s : ℕ) (hs : s < 16) (i j : Fin 256) :
    partialGram a b s hs i j = ∑ k : Fin (s + 1), chunk a b k.val (by have := k.isLt; omega) i j := rfl

/-- Over one chunk the partial sum is that chunk's share. -/
theorem partialGram_first (a b : Fin 131072 → Fin 256 → EReal) (s : ℕ) (hs : s < 16) (h0 : s = 0) (i j : Fin 256) :
    partialGram a b s hs i j = chunk a b s hs i j := by
  subst h0
  rw [partialGram_eq_chunks, Fin.sum_univ_castSucc, Finset.univ_eq_empty, Finset.sum_empty, zero_add]
  rfl

/-- One chunk more adds that chunk's share. -/
theorem partialGram_next (a b : Fin 131072 → Fin 256 → EReal) (s s' : ℕ) (hs : s < 16) (hs' : s' < 16) (h : s = s' + 1)
    (i j : Fin 256) : partialGram a b s hs i j = partialGram a b s' hs' i j + chunk a b s hs i j := by
  subst h
  rw [partialGram_eq_chunks, Fin.sum_univ_castSucc]
  rfl

/-- A column depends only on its block column's number. -/
theorem colOf_congr (I I' : ℕ) (hI : I < 2) (hI' : I' < 2) (h : I = I') (p : Fin 128) : colOf I hI p = colOf I' hI' p := by
  subst h; rfl

/-- The products of the two blocks at point `t`, summed over the block's rows, are chunk `t mod 16`'s share of the
    Gram entry at the block's columns. -/
theorem chunk_of_blocks (c : Dev nD) (t : Fin cfg0.N) (p q : Fin 128) :
    ∑ r : Fin 8192, ablk V c t (ix2 r p) * bblk V c t (ix2 r q)
      = chunk (matA V c) (matB V c) (t.val % 16) (Nat.mod_lt _ (by decide))
          (colOf (t.val / 32) (by have := lt64 t.isLt; omega) p) (colOf ((t.val / 16) % 2) (Nat.mod_lt _ (by decide)) q) := by
  unfold chunk
  refine Finset.sum_congr rfl fun r _ => ?_
  rw [ablk_apply, bblk_apply]

/-! ## The accumulator after each point -/

/-- At a first step the accumulator is left at zero plus this chunk's share. -/
theorem acc_first (c : Dev nD) (t : Fin cfg0.N) (h0 : t.val % 16 = 0) (h1 : ¬t.val % 16 = 15) (p q : Fin 128) :
    (outsAt0 V c t.val t.isLt).2 (ix2 p q)
      = chunk (matA V c) (matB V c) (t.val % 16) (Nat.mod_lt _ (by decide))
          (colOf (t.val / 32) (by have := lt64 t.isLt; omega) p) (colOf ((t.val / 16) % 2) (Nat.mod_lt _ (by decide)) q) := by
  rw [outsAt0_A V c t h0 h1]
  dsimp only
  refine (congrFun (sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (ablk V c t) (bblk V c t)) (ix2 p q)).trans ?_
  rw [Cert.MatmulValue.step_eq, Cert.MatmulValue.zero_eq, zero_add]
  exact chunk_of_blocks V c t p q

/-- At a later step it is left at what the point before left plus this chunk's share. -/
theorem acc_later (c : Dev nD) (t : Fin cfg0.N) (h0 : ¬t.val % 16 = 0) (p q : Fin 128) :
    (outsAt0 V c t.val t.isLt).2 (ix2 p q)
      = (outsAt0 V c (t.val - 1) (Nat.lt_of_le_of_lt (Nat.sub_le _ _) t.isLt)).2 (ix2 p q)
        + chunk (matA V c) (matB V c) (t.val % 16) (Nat.mod_lt _ (by decide))
            (colOf (t.val / 32) (by have := lt64 t.isLt; omega) p) (colOf ((t.val / 16) % 2) (Nat.mod_lt _ (by decide)) q) := by
  by_cases h1 : t.val % 16 = 15
  · rw [outsAt0_C V c t h0 h1]
    dsimp only
    refine (congrFun (sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (ablk V c t) (bblk V c t) (outsAt0 V c (t.val - 1) (Nat.lt_of_le_of_lt (Nat.sub_le _ _) t.isLt)).2) (ix2 p q)).trans ?_
    rw [Cert.MatmulValue.step_eq, chunk_of_blocks]
  · rw [outsAt0_B V c t h0 h1]
    dsimp only
    refine (congrFun (sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (ablk V c t) (bblk V c t) (outsAt0 V c (t.val - 1) (Nat.lt_of_le_of_lt (Nat.sub_le _ _) t.isLt)).2) (ix2 p q)).trans ?_
    rw [Cert.MatmulValue.step_eq, chunk_of_blocks]

/-- After point `n` the accumulator holds the partial Gram sums of its block. -/
theorem acc_eq (c : Dev nD) (n : ℕ) (hn : n < cfg0.N) (p q : Fin 128) :
    (outsAt0 V c n hn).2 (ix2 p q)
      = partialGram (matA V c) (matB V c) (n % 16) (Nat.mod_lt _ (by decide))
          (colOf (n / 32) (by have := lt64 hn; omega) p) (colOf ((n / 16) % 2) (Nat.mod_lt _ (by decide)) q) := by
  induction n using Nat.strong_induction_on with
  | _ n ih =>
    have h64 := lt64 hn
    by_cases h0 : n % 16 = 0
    · -- a block's first step: one chunk
      have h1 : ¬n % 16 = 15 := by omega
      refine (acc_first V c ⟨n, hn⟩ h0 h1 p q).trans ?_
      exact (partialGram_first (matA V c) (matB V c) (n % 16) _ h0 _ _).symm
    · -- a later step: the point before is in the same block, one chunk earlier
      refine (acc_later V c ⟨n, hn⟩ h0 p q).trans ?_
      show (outsAt0 V c (n - 1) _).2 (ix2 p q) + _ = _
      rw [ih (n - 1) (by omega) (Nat.lt_of_le_of_lt (Nat.sub_le _ _) hn),
        colOf_congr ((n - 1) / 32) (n / 32) _ (by omega) (by omega) p,
        colOf_congr (((n - 1) / 16) % 2) ((n / 16) % 2) _ (Nat.mod_lt _ (by decide)) (by omega) q]
      exact (partialGram_next (matA V c) (matB V c) (n % 16) ((n - 1) % 16) _ _ (by omega) _ _).symm

/-- At a last step the output's staging buffer holds a copy of the accumulator. -/
theorem out_eq (c : Dev nD) (n : ℕ) (hn : n < cfg0.N) (h15 : n % 16 = 15) :
    (outsAt0 V c n hn).1 = (outsAt0 V c n hn).2 := by
  have h0 : ¬n % 16 = 0 := by omega
  rw [outsAt0_C V c ⟨n, hn⟩ h0 h15]
  dsimp only
  exact (out_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h15) (iblk0 V c 0 ⟨n, hn⟩) (iblk0 V c 1 ⟨n, hn⟩) (outsAt0 V c (n - 1) (Nat.lt_of_le_of_lt (Nat.sub_le _ _) hn)).2).trans
    (sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h15) (iblk0 V c 0 ⟨n, hn⟩) (iblk0 V c 1 ⟨n, hn⟩) (outsAt0 V c (n - 1) (Nat.lt_of_le_of_lt (Nat.sub_le _ _) hn)).2).symm

end Cert.KernelIdeal.GramValue

end
-- ==== Proof.GramFinal.lean ====
/-
  The first kernel's output array after its whole grid: the Gram product of the two argument matrices.

  The 256 × 256 output is tiled by four 128 × 128 blocks.  Block (I, J) is written back exactly once, after the last
  of its sixteen reduction steps, at point (2·I + J)·16 + 15.  What is written there is the accumulator, which by then
  holds the partial Gram sums over all sixteen chunks of 8192 rows: the full sum over the 131072 rows.  Entry (i, j)
  of the array lies in block (i / 128, j / 128) at offset (i mod 128, j mod 128), so every entry is covered by one
  write-back and ends at ∑ₙ a n i · b n j.
-/
import proofs.«147790_j71159018160383_1_alg».proof.Proof.GramAcc
import proofs.«147790_j71159018160383_1_alg».proof.Proof.Spec
import Idealize.ShloMosaic.Lib.Pipeline.Value
import Idealize.ShloMosaic.Lib.ValueIdx

noncomputable section

namespace Cert.KernelIdeal.GramValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## All sixteen chunks are all the rows -/

/-- The partial Gram sum over all sixteen chunks of 8192 rows is the Gram product's entry: row number
    n = 8192 k + r is row r of chunk k. -/
theorem partialGram_last (a b : Fin 131072 → Fin 256 → EReal) (s : ℕ) (hs : s < 16) (h15 : s = 15) (i j : Fin 256) :
    partialGram a b s hs i j = Cert.Spec.gram a b i j := by
  subst h15
  exact (Cert.MatmulValue.sum_chunks fun n => a n i * b n j).symm

/-! ## The output array as one function of the arguments -/

/-- The whole 256 × 256 array: entry (i, j) is the Gram product's entry (i, j). -/
def gramArr (c : Dev nD) : S256x256.Idx → Elt Ideal .f32 :=
  fun idx => Cert.Spec.gram (matA V c) (matB V c) (idx 0) (idx 1)

/-- The output's block at point n: block row n / 32, block column (n / 16) mod 2. -/
theorem out_index : ∀ t : Fin cfg0.N,
    win0_2.index t (0 : Fin 2) = t.val / 32 ∧ win0_2.index t (1 : Fin 2) = (t.val / 16) % 2 :=
  (by decide +kernel : ∀ t : Fin grid0.N, _)

/-- The whole array at the entry with coordinates (i, j). -/
theorem gramArr_ix2 (c : Dev nD) (i j : Fin 256) :
    gramArr V c (ix2 i j) = Cert.Spec.gram (matA V c) (matB V c) i j := rfl

/-- A block of the output read at one of its entries is the array read at the entry's place. -/
theorem read_out_blk (G : S256x256.Idx → Elt Ideal .f32) (t : Fin cfg0.N)
    (y : ((cfg0.win 2).xblock (grid0.coords t)).Idx) :
    ((cfg0.win 2).blk t).view.read (Elt Ideal) G y = G (((cfg0.win 2).blk t).view.emb y) := rfl

/-- Entry (p, q) of the block at point n sits in the array at row 128 (n / 32) + p and column
    128 ((n / 16) mod 2) + q. -/
theorem out_emb (t : Fin cfg0.N) (y : ((cfg0.win 2).xblock (grid0.coords t)).Idx) (p q : Fin 128)
    (hp : p.val = (y 0).val) (hq : q.val = (y 1).val) :
    ((cfg0.win 2).blk t).view.emb y
      = ix2 (colOf (t.val / 32) (by have := lt64 t.isLt; omega) p) (colOf ((t.val / 16) % 2) (Nat.mod_lt _ (by decide)) q) := by
  obtain ⟨e0, e1⟩ := out_index t
  funext a
  apply Fin.ext
  match a with
  | ⟨0, _⟩ =>
    show win0_2.index t (0 : Fin 2) * 128 + 1 * (y 0).val = t.val / 32 * 128 + p.val
    rw [e0, hp]; omega
  | ⟨1, _⟩ =>
    show win0_2.index t (1 : Fin 2) * 128 + 1 * (y 1).val = (t.val / 16) % 2 * 128 + q.val
    rw [e1, hq]; omega

/-- What a last step writes back is its block of the Gram product: the accumulator's entry (p, q) is the full Gram
    sum at columns 128 I + p and 128 J + q, and that is where entry (p, q) of block (I, J) sits in the array. -/
theorem flushed_eq (c : Dev nD) (t : Fin cfg0.N) (hf : (cfg0.win 2).flush t = true) :
    (dat0 (F := Ideal) V c).flushed 2 t = ((cfg0.win 2).blk t).view.read (Elt Ideal) (gramArr V c) := by
  have h15 : t.val % 16 = 15 := (flush0_2 t).mp hf
  show (cfg0.win 2).cut (grid0.coords t) ((dat0 (F := Ideal) V c).after 2 t) = _
  rw [after0_2, out_eq V c t.val t.isLt h15]
  funext y
  have hy0 : (y 0).val < 128 := (y 0).isLt
  have hy1 : (y 1).val < 128 := (y 1).isLt
  have hx : win0_2.xinj (grid0.coords t) y = ix2 (⟨(y 0).val, hy0⟩ : Fin 128) (⟨(y 1).val, hy1⟩ : Fin 128) := by
    funext a
    match a with
    | ⟨0, _⟩ => rfl
    | ⟨1, _⟩ => rfl
  rw [read_out_blk, out_emb t y ⟨(y 0).val, hy0⟩ ⟨(y 1).val, hy1⟩ rfl rfl, gramArr_ix2]
  show (outsAt0 V c t.val t.isLt).2 (win0_2.xinj (grid0.coords t) y) = _
  rw [hx, acc_eq V c t.val t.isLt]
  exact partialGram_last _ _ _ _ h15 _ _

/-! ## The four blocks cover the array -/

/-- An entry is in a point's block when each coordinate is in the block's range on its axis. -/
theorem mem_out_blk (t : Fin cfg0.N) (idx : S256x256.Idx) :
    idx ∈ ((cfg0.win 2).blk t).view.set
      ↔ ∀ a : Fin 2, win0_2.index t a * S128x128.size a ≤ (idx a).val
          ∧ (idx a).val < win0_2.index t a * S128x128.size a + S128x128.size a := by
  show idx ∈ ((View.whole main_v0).slice (win0_2.rect t)).set ↔ _
  rw [View.set_slice_whole, Rect.mem_set_unit]
  exact Iff.rfl

/-- Entry (i, j) is written back at the last step of block (i / 128, j / 128). -/
theorem covered (idx : S256x256.Idx) :
    ∃ t : Fin cfg0.N, (cfg0.win 2).flush t = true ∧ idx ∈ ((cfg0.win 2).blk t).view.set := by
  have h0 : (idx 0).val < 256 := (idx 0).isLt
  have h1 : (idx 1).val < 256 := (idx 1).isLt
  have hN : (2 * ((idx 0).val / 128) + (idx 1).val / 128) * 16 + 15 < cfg0.N :=
    lt_of_lt_of_eq (by omega) (show (64 : ℕ) = cfg0.N from N_0.symm)
  obtain ⟨t, ht⟩ : ∃ t : Fin cfg0.N, t.val = (2 * ((idx 0).val / 128) + (idx 1).val / 128) * 16 + 15 := ⟨⟨_, hN⟩, rfl⟩
  obtain ⟨e0, e1⟩ := out_index t
  refine ⟨t, (flush0_2 t).mpr (by omega), ?_⟩
  rw [mem_out_blk]
  intro a
  match a with
  | ⟨0, _⟩ =>
    show win0_2.index t (0 : Fin 2) * 128 ≤ (idx 0).val ∧ (idx 0).val < win0_2.index t (0 : Fin 2) * 128 + 128
    rw [e0]; omega
  | ⟨1, _⟩ =>
    show win0_2.index t (1 : Fin 2) * 128 ≤ (idx 1).val ∧ (idx 1).val < win0_2.index t (1 : Fin 2) * 128 + 128
    rw [e1]; omega

/-! ## The array after the run -/

/-- After the whole grid the output array's entry (i, j) is the Gram product's entry (i, j). -/
theorem final (c : Dev nD) (i j : Fin 256) :
    (dat0 (F := Ideal) V c).arrAt 2 cfg0.N (ix2 i j) = Cert.Spec.gram (matA V c) (matB V c) i j :=
  congrFun ((dat0 (F := Ideal) V c).arrAt_eq_of_cover 2 (gramArr V c) (flushed_eq V c) covered) (ix2 i j)

end Cert.KernelIdeal.GramValue

end
-- ==== Proof.LossValue.lean ====
/-
  The second kernel and the closing reshape, read as values over the extended reals.

  The second kernel's one input block is its whole 256 × 256 array and its one output block the whole 1 × 1 array, so
  after its single write-back the output array holds, at its one entry, the loss of the joint matrix it was given.
  The reshape copies that entry into the scalar result.  With the first kernel's array at the Gram product of the two
  arguments, the program's result is the loss of their Gram product.
-/
import proofs.«147790_j71159018160383_1_alg».proof.Proof.KernelIdealRun
import proofs.«147790_j71159018160383_1_alg».proof.Proof.PostValue
import proofs.«147790_j71159018160383_1_alg».proof.Proof.GramFinal
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.LossValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

section
variable {F : FTy → Type} [FloatOps F]
variable (V : (c : Dev nD) → (b : Ref sig .tc) → Buf (Elt F) ((c : Thread nD τ).loc b))

/-- The one store's payload is what the output buffer holds: the loss payload of the loaded block. -/
theorem out1_eq (x0 : Vec F S256x256 .f32) : out1_1 x0 = k1_pay1 x0 := by
  unfold out1_1
  rw [View.canon_unit_zero hz, View.ld_unit_zero (S := S256x256) hz]

/-- The input window's one block is the whole joint matrix. -/
theorem iblk1_eq (c : Dev nD) (t : Fin cfg1.N) : (iblk1 V c 0 t : Vec F S256x256 .f32) = V c main_v0 := by
  obtain rfl := fin_N1 t
  have hz' : (fun a => win1_0.index t1_0 a * main_v0.ty.shape.size a) = fun _ => 0 := funext fun a => by fin_cases a <;> decide
  exact Memref.read_access_unit_zero (Elt F) main_v0 hz' (fun a => by rw [congrFun hz' a]; simp) (V c main_v0)

end

variable (V : (c : Dev nD) → (b : Ref sig .tc) → Buf (Elt Ideal) ((c : Thread nD τ).loc b))

/-- The joint matrix as the second kernel finds it. -/
def matP (c : Dev nD) : Fin 256 → Fin 256 → EReal := fun i j => V c main_v0 (ix2 i j)

/-- What the 1 × 1 output array ends holding: the loss of the joint matrix, at its one entry. -/
def res (c : Dev nD) : Buf (Elt Ideal) ((c : Thread nD τ).loc main_v1) := fun _ => Cert.Spec.lossOf (matP V c)

/-- The single write-back writes the loss. -/
theorem flushed1 (c : Dev nD) (t : Fin cfg1.N) (hf : (cfg1.win 1).flush t = true) :
    (dat1 V c).flushed 1 t = ((cfg1.win 1).blk t).view.read (Elt Ideal) (res V c) := by
  obtain rfl := fin_N1 t
  show (cfg1.win 1).cut (grid1.coords t1_0) ((dat1 V c).after 1 t1_0) = _
  rw [after1_1, out1_eq, iblk1_eq]
  have hz' : (fun a => win1_1.index t1_0 a * main_v1.ty.shape.size a) = fun _ => 0 := funext fun a => by fin_cases a <;> decide
  refine Eq.trans ?_ (Memref.read_access_unit_zero (Elt Ideal) main_v1 hz' (fun a => by rw [congrFun hz' a]; simp) (res V c)).symm
  funext y
  exact Cert.PostValue.post_eq (V c main_v0) y

/-- So the 1 × 1 array ends at the loss. -/
theorem final1 (c : Dev nD) : (dat1 V c).arrAt 1 cfg1.N = res V c :=
  (dat1 V c).arrAt_eq_of_cover 1 (res V c) (flushed1 V c) fun i =>
    ⟨t1_0, flush1_1 t1_0, by
      show i ∈ ((View.whole main_v1).slice (win1_1.rect t1_0)).set
      rw [View.set_slice_whole, Rect.mem_set_unit]
      intro a
      have h0 : (i 0 : Nat) < 1 := (i 0).isLt
      have h1 : (i 1 : Nat) < 1 := (i 1).isLt
      match a with
      | ⟨0, _⟩ => show win1_1.index t1_0 0 * win1_1.size 0 ≤ (i 0 : Nat) ∧ (i 0 : Nat) < win1_1.index t1_0 0 * win1_1.size 0 + win1_1.xsize (grid1.coords t1_0) 0
                  rw [show win1_1.index t1_0 0 * win1_1.size 0 = 0 from by decide +kernel, show win1_1.xsize (grid1.coords t1_0) 0 = 1 from by decide +kernel]; omega
      | ⟨1, _⟩ => show win1_1.index t1_0 1 * win1_1.size 1 ≤ (i 1 : Nat) ∧ (i 1 : Nat) < win1_1.index t1_0 1 * win1_1.size 1 + win1_1.xsize (grid1.coords t1_0) 1
                  rw [show win1_1.index t1_0 1 * win1_1.size 1 = 0 from by decide +kernel, show win1_1.xsize (grid1.coords t1_0) 1 = 1 from by decide +kernel]; omega⟩

/-! ## The program's result -/

variable (m : (ℓ : Loc nD τ sig) → Buf (Elt Ideal) ℓ)

/-- The two arguments as plain matrices. -/
def argA (c : Dev nD) : Fin 131072 → Fin 256 → EReal := fun n k => m ((c : Thread nD τ).loc main_arg0) (ix2 n k)
def argB (c : Dev nD) : Fin 131072 → Fin 256 → EReal := fun n k => m ((c : Thread nD τ).loc main_arg1) (ix2 n k)

/-- After the first kernel the joint-matrix array holds the Gram product of the two arguments. -/
theorem joint_eq (c : Dev nD) : matP (U1 m) c = Cert.Spec.gram (argA m c) (argB m c) := by
  funext i j
  show W1 m c (Proc.devRef .tc main_v0) (ix2 i j) = _
  rw [show W1 m c (Proc.devRef .tc main_v0) = (dat0 (U0 m) c).arrAt 2 cfg0.N from W1_arr m c 2]
  exact Cert.KernelIdeal.GramValue.final (U0 m) c i j

/-- The scalar result after the reshape: the loss of the arguments' Gram product. -/
theorem result_eq (c : Dev nD) (i : S_.Idx) :
    W3 m c (Proc.devRef .tc main_v2) i = Cert.Spec.lossOf (Cert.Spec.gram (argA m c) (argB m c)) := by
  have e : W3 m c (Proc.devRef .tc main_v2) = shapeCast S_ (W2 m c (Proc.devRef .tc main_v1)) shapeCasts_S1x1_S_ := by
    show StableHlo.after hostOps2 (W2 m c) (Proc.devRef .tc main_v2) = _
    after_results
    rfl
  rw [e, show W2 m c (Proc.devRef .tc main_v1) = (dat1 (U1 m) c).arrAt 1 cfg1.N from W2_arr m c 1, final1]
  unfold shapeCast res
  rw [joint_eq]

end Cert.KernelIdeal.LossValue

end
-- ==== Proof.RefValue.lean ====
import proofs.«147790_j71159018160383_1_alg».proof.Proof.Gen.ReferenceIdeal.Run
import proofs.«147790_j71159018160383_1_alg».proof.Proof.Gen.ReferenceIdeal.Read
import proofs.«147790_j71159018160383_1_alg».proof.Proof.Spec
import Idealize.ShloMosaic.PureOps.Ideal.Laws
import Idealize.ShloMosaic.Lib.ValueIdx

/-
  The reference program's value is the specification's loss of the Gram product of its two arguments.

  Each stage of the reference is read at an index built from its coordinates and identified with the matching
  piece of the specification: the contraction over the 131072 rows is the Gram product; the transpose swaps the
  two coordinates, so the sum with the transpose is an entry plus its mirror image; dividing by the real 2 is
  multiplying by the real 1/2 (on every extended real, the infinities included); a reduction over both axes from
  the zero word is the nested double sum; the reductions over one axis are the marginals; a broadcast reads its
  operand at the coordinates it keeps; negation is subtraction from zero.
-/

noncomputable section

namespace Cert.RefValue

open Idealize.ShloMosaic Idealize.ShloMosaic.ValueIdx
open Cert.ReferenceIdeal Cert.ReferenceIdeal.Read Cert.Spec

/-- The tall matrices the two arguments are, entry by coordinates. -/
abbrev mat (x : (⟨S131072x256, .f32⟩ : BufTy).Contents (Elt Ideal)) : Fin 131072 → Fin 256 → EReal :=
  fun n k => x (ix2 n k)

/-! ## The two constants that differ between the programs -/

/-- The word for two denotes the real 2. -/
theorem two_eq : Cert.Spec.two = ((2 : ℝ) : EReal) := by
  unfold Cert.Spec.two
  simp [Ideal.ofBits, Ideal.ieee, -EReal.coe_mul]; norm_num

/-- The word for one half denotes the real 1/2. -/
theorem half_eq : Cert.Spec.half = ((1 / 2 : ℝ) : EReal) := by
  unfold Cert.Spec.half
  simp [Ideal.ofBits, Ideal.ieee, -EReal.coe_mul]; norm_num

/-- Dividing by two is multiplying by one half, on every extended real. -/
theorem div_two (x : EReal) : Ideal.div x Cert.Spec.two = x * Cert.Spec.half := by
  rw [two_eq, half_eq]
  exact Ideal.div_coe (by norm_num) x

/-! ## The index maps of the layout operations, at indices built from coordinates -/

theorem lidx_v0 (i j : Fin 256) (k : Fin 131072) : lidx_main_v0 (ix2 i j) k = ix2 k i := by
  funext a; match a with | ⟨0, _⟩ => rfl | ⟨1, _⟩ => rfl

theorem ridx_v0 (i j : Fin 256) (k : Fin 131072) : ridx_main_v0 (ix2 i j) k = ix2 k j := by
  funext a; match a with | ⟨0, _⟩ => rfl | ⟨1, _⟩ => rfl

theorem idx_v1 (i j : Fin 256) : idx_main_v1 (ix2 i j) = ix2 j i := by
  funext a; match a with | ⟨0, _⟩ => rfl | ⟨1, _⟩ => rfl

theorem idx_v8 (i k : Fin 256) : idx_main_v8 (ix1 i) k = ix2 i k := by
  funext a; match a with | ⟨0, _⟩ => rfl | ⟨1, _⟩ => rfl

theorem idx_v9 (i : Fin 256) (z : Fin 1) : idx_main_v9 (ix2 i z) = ix1 i := by
  funext a; match a with | ⟨0, _⟩ => rfl

theorem idx_v10 (j k : Fin 256) : idx_main_v10 (ix1 j) k = ix2 k j := by
  funext a; match a with | ⟨0, _⟩ => rfl | ⟨1, _⟩ => rfl

theorem idx_v11 (z : Fin 1) (j : Fin 256) : idx_main_v11 (ix2 z j) = ix1 j := by
  funext a; match a with | ⟨0, _⟩ => rfl

theorem idx_v23 (i j : Fin 256) : idx_main_v23 (ix2 i j) = ix2 (0 : Fin 1) j := by
  funext a; match a with | ⟨0, _⟩ => rfl | ⟨1, _⟩ => rfl

theorem idx_v28 (i j : Fin 256) : idx_main_v28 (ix2 i j) = ix2 i (0 : Fin 1) := by
  funext a; match a with | ⟨0, _⟩ => rfl | ⟨1, _⟩ => rfl

/-! ## The stages -/

section Stages

variable (x0 x1 : (⟨S131072x256, .f32⟩ : BufTy).Contents (Elt Ideal))

/-- The contraction over the rows is the Gram product. -/
theorem v0_eq (i j : Fin 256) :
    val_main_v0 (F := Ideal) x0 x1 (ix2 i j) = gram (mat x0) (mat x1) i j := by
  rw [val_main_v0_apply]
  refine Finset.sum_congr rfl fun k _ => ?_
  rw [lidx_v0, ridx_v0]

/-- The sum with the transpose, halved, is the symmetrised Gram product. -/
theorem v4_eq (i j : Fin 256) :
    val_main_v4 (F := Ideal) x0 x1 (ix2 i j) = sym (gram (mat x0) (mat x1)) i j := by
  rw [val_main_v4_apply, val_main_v2_apply, val_main_v1_apply, idx_v1, v0_eq, v0_eq, val_main_v3_apply,
    val_main_cst_apply]
  exact div_two _

/-- The reduction over both axes is the grand total. -/
theorem v5_eq (q : S_.Idx) :
    val_main_v5 (F := Ideal) x0 x1 q = total (sym (gram (mat x0) (mat x1))) := by
  rw [val_main_v5_apply, val_main_cst_0_apply, Ideal.ofBits_def, Ideal.ofBits_zero_f32, zero_add, sum_idx2]
  exact Finset.sum_congr rfl fun a _ => Finset.sum_congr rfl fun b _ => v4_eq x0 x1 a b

/-- Divided by the grand total: the normalised matrix. -/
theorem v7_eq (i j : Fin 256) :
    val_main_v7 (F := Ideal) x0 x1 (ix2 i j) = nrm (sym (gram (mat x0) (mat x1))) i j := by
  rw [val_main_v7_apply, val_main_v6_apply, v5_eq, v4_eq]
  rfl

end Stages

section Marginals

variable (x0 x1 : (⟨S131072x256, .f32⟩ : BufTy).Contents (Elt Ideal))

/-- The reduction over the second axis is the row marginal. -/
theorem v8_eq (i : Fin 256) :
    val_main_v8 (F := Ideal) x0 x1 (ix1 i) = rowm (nrm (sym (gram (mat x0) (mat x1)))) i := by
  rw [val_main_v8_apply, val_main_cst_1_apply, Ideal.ofBits_def, Ideal.ofBits_zero_f32, zero_add]
  refine Finset.sum_congr rfl fun k _ => ?_
  rw [idx_v8, v7_eq]

/-- The reduction over the first axis is the column marginal. -/
theorem v10_eq (j : Fin 256) :
    val_main_v10 (F := Ideal) x0 x1 (ix1 j) = colm (nrm (sym (gram (mat x0) (mat x1)))) j := by
  rw [val_main_v10_apply, val_main_cst_2_apply, Ideal.ofBits_def, Ideal.ofBits_zero_f32, zero_add]
  refine Finset.sum_congr rfl fun k _ => ?_
  rw [idx_v10, v7_eq]

/-- The clamped entry. -/
theorem v13_eq (i j : Fin 256) :
    val_main_v13 (F := Ideal) x0 x1 (ix2 i j) = max (nrm (sym (gram (mat x0) (mat x1))) i j) eps := by
  rw [val_main_v13_apply, v7_eq, val_main_v12_apply, val_main_cst_3_apply]
  rfl

/-- The clamped row marginal, kept as a column. -/
theorem v15_eq (i : Fin 256) (z : Fin 1) :
    val_main_v15 (F := Ideal) x0 x1 (ix2 i z) = max (rowm (nrm (sym (gram (mat x0) (mat x1)))) i) eps := by
  rw [val_main_v15_apply, val_main_v9_apply, idx_v9, v8_eq, val_main_v14_apply, val_main_cst_4_apply]
  rfl

/-- The clamped column marginal, kept as a row. -/
theorem v17_eq (z : Fin 1) (j : Fin 256) :
    val_main_v17 (F := Ideal) x0 x1 (ix2 z j) = max (colm (nrm (sym (gram (mat x0) (mat x1)))) j) eps := by
  rw [val_main_v17_apply, val_main_v11_apply, idx_v11, v10_eq, val_main_v16_apply, val_main_cst_5_apply]
  rfl

/-- Ten times the logarithm of the clamped column marginal, spread over the rows. -/
theorem v23_eq (i j : Fin 256) :
    val_main_v23 (F := Ideal) x0 x1 (ix2 i j)
      = ten * Ideal.log (max (colm (nrm (sym (gram (mat x0) (mat x1)))) j) eps) := by
  rw [val_main_v23_apply, idx_v23, val_main_v22_apply, val_main_v20_apply, v17_eq, val_main_v21_apply,
    val_main_cst_6_apply, Ideal.mulf_def, Ideal.hostUnary_log_def, Ideal.ofBits_def]
  rfl

/-- Ten times the logarithm of the clamped row marginal, spread over the columns. -/
theorem v28_eq (i j : Fin 256) :
    val_main_v28 (F := Ideal) x0 x1 (ix2 i j)
      = ten * Ideal.log (max (rowm (nrm (sym (gram (mat x0) (mat x1)))) i) eps) := by
  rw [val_main_v28_apply, idx_v28, val_main_v27_apply, val_main_v25_apply, v15_eq, val_main_v26_apply,
    val_main_cst_7_apply, Ideal.mulf_def, Ideal.hostUnary_log_def, Ideal.ofBits_def]
  rfl

/-- One entry's contribution to the loss. -/
theorem v30_eq (i j : Fin 256) :
    val_main_v30 (F := Ideal) x0 x1 (ix2 i j) = term (nrm (sym (gram (mat x0) (mat x1)))) i j := by
  rw [val_main_v30_apply, val_main_v18_apply, val_main_v29_apply, val_main_v24_apply, val_main_v19_apply,
    v13_eq, v23_eq, v28_eq]
  simp only [Ideal.mulf_def, Ideal.subf_def, Ideal.hostUnary_log_def, Ideal.hostNegf_def, Ideal.negf_def]
  unfold Cert.Spec.term
  rw [zero_sub]

end Marginals

/-- The reference's value is the specification's loss of the Gram product of its arguments. -/
theorem ref_eq (x0 x1 : (⟨Cert.ReferenceIdeal.S131072x256, .f32⟩ : Idealize.ShloMosaic.BufTy).Contents (Idealize.ShloMosaic.Elt Idealize.ShloMosaic.Ideal))
    (i : Cert.ReferenceIdeal.S_.Idx) :
    Cert.ReferenceIdeal.Read.val_main_v31 (F := Idealize.ShloMosaic.Ideal) x0 x1 i
      = Cert.Spec.lossOf (Cert.Spec.gram (fun n k => x0 (Idealize.ShloMosaic.ValueIdx.ix2 n k))
          (fun n k => x1 (Idealize.ShloMosaic.ValueIdx.ix2 n k))) := by
  rw [val_main_v31_apply, val_main_cst_8_apply, Ideal.ofBits_def, Ideal.ofBits_zero_f32, zero_add, sum_idx2]
  exact Finset.sum_congr rfl fun a _ => Finset.sum_congr rfl fun b _ => v30_eq x0 x1 a b

end Cert.RefValue

end
-- ==== Proof.lean ====
/-
  The certificate: a blocked Gram product followed by a contrastive loss, against the plain formula.

  Both programs take two 131072 × 256 matrices.  The kernel program forms their Gram product `P = aᵀ b` block by block
  (a 2 × 2 grid of 128 × 128 output blocks, each accumulated over sixteen chunks of 8192 rows), and a second kernel turns the
  256 × 256 matrix into one number: symmetrise, divide by the grand total, take both marginals, clamp at 2⁻⁵², and total
  `−N̂ · (log N̂ − 10 log ĉ − 10 log r̂)`.  The reference computes the same with one matrix product and whole-array
  operations.  Over the extended reals the two agree because a sum may be regrouped freely (sixteen chunk sums against one
  sum; rows-then-columns against all entries at once), because halving is multiplying by one half, and because `0 − x` is
  `−x`; no step uses that the inputs are finite.

  The three frames: each kernel program's run is followed region by region with the buffers' contents named at every
  boundary, and neither region nor the closing reshape writes an argument; the reference's frame is its run with the result
  dropped.  The idealization rewrote nothing, so its statement is trivial.
-/
import proofs.«147790_j71159018160383_1_alg».proof.Defs
import proofs.«147790_j71159018160383_1_alg».proof.Proof.Gen.Kernel
import proofs.«147790_j71159018160383_1_alg».proof.Proof.Gen.KernelIdeal
import proofs.«147790_j71159018160383_1_alg».proof.Proof.Gen.ReferenceIdeal
import proofs.«147790_j71159018160383_1_alg».proof.Proof.Gen.Pre_finite_inputs
import proofs.«147790_j71159018160383_1_alg».proof.Proof.Gen.ReferenceIdeal.Run
import proofs.«147790_j71159018160383_1_alg».proof.Proof.Gen.ReferenceIdeal.Read
import proofs.«147790_j71159018160383_1_alg».proof.Proof.KernelRun
import proofs.«147790_j71159018160383_1_alg».proof.Proof.KernelIdealRun
import proofs.«147790_j71159018160383_1_alg».proof.Proof.LossValue
import proofs.«147790_j71159018160383_1_alg».proof.Proof.RefValue
import Idealize.ShloMosaic.Adequacy
import Idealize.ShloMosaic.Init

noncomputable section

namespace Cert.Proof

open Idealize.ShloMosaic Idealize.SL.Sem

/-- The word-level kernel program terminates, faults nowhere and leaves its arguments as launched. -/
theorem frame_k : Cert.frame_Kernel :=
  fun m ρ _ => Cert.Kernel.Hand.frame m ρ

/-- The same of its idealization. -/
theorem frame_ki : Cert.frame_KernelIdeal :=
  fun m ρ _ => Cert.KernelIdeal.Hand.frame m ρ

/-- The reference's frame is its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- Both programs end at the loss of the arguments' Gram product. -/
theorem algebraic : Cert.algebraic_KernelIdeal_ReferenceIdeal := by
  intro m ρ m' ρ' _ hagree
  refine ⟨fun c _ => Cert.Spec.lossOf (Cert.Spec.gram (Cert.KernelIdeal.LossValue.argA m c) (Cert.KernelIdeal.LossValue.argB m c)), ?_, ?_⟩
  · refine (θ_run Cert.KernelIdeal.defs _ _).mono (fun _ h c => ⟨?_, ?_, ?_⟩) (Cert.KernelIdeal.Hand.run m ρ)
    · exact (h c _ (Cert.KernelIdeal.Hand.mem_uc Cert.KernelIdeal.main_v2 (by decide))).trans
        (funext fun i => Cert.KernelIdeal.LossValue.result_eq m c i)
    · exact (h c _ (Cert.KernelIdeal.Hand.mem_uc Cert.KernelIdeal.main_arg0 (by decide))).trans (Cert.KernelIdeal.Hand.W3_main_arg0 m c)
    · exact (h c _ (Cert.KernelIdeal.Hand.mem_uc Cert.KernelIdeal.main_arg1 (by decide))).trans (Cert.KernelIdeal.Hand.W3_main_arg1 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v31_eq]
    funext i
    rw [Cert.RefValue.ref_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
